-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x3 : Shape := ⟨3, ![16, 3, 3]⟩
abbrev S16x3 : Shape := ⟨2, ![16, 3]⟩
abbrev S16x2048x3 : Shape := ⟨3, ![16, 2048, 3]⟩
abbrev S_ : Shape := ⟨0, ![]⟩

class Facts : Prop where
  bcast_S_S16x3x3 : S_.BroadcastsInDim S16x3x3 (![] : Fin 0 → Fin S16x3x3.rank)
  reducesTo_S16x3x3_S_d0_1_2 : S16x3x3.ReducesTo [0, 1, 2] S_
  h_S_ : 0 < S_.numel
  bcast_S_S16x3 : S_.BroadcastsInDim S16x3 (![] : Fin 0 → Fin S16x3.rank)
  reducesTo_S16x3_S_d0_1 : S16x3.ReducesTo [0, 1] S_
  bcast_S_S16x2048x3 : S_.BroadcastsInDim S16x2048x3 (![] : Fin 0 → Fin S16x2048x3.rank)
  reducesTo_S16x2048x3_S_d0_1_2 : S16x2048x3.ReducesTo [0, 1, 2] S_

variable [Facts]

def fn_part1 {F : FTy → Type} [FloatOps F] (main_arg4 : FVec F S16x2048x3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S16x2048x3 .f32 := Host.absf main_arg4
  let main_cst_6 : FVec F S_ .f32 := constant S_ .f32 0x7F800000#32
  let main_v20 : FVec F S16x2048x3 .f32 := broadcastInDim S16x2048x3 ![] bcast_S_S16x2048x3 main_cst_6
  let main_v21 : IVec S16x2048x3 1 := cmpf .olt main_v19 main_v20
  let main_c_7 : IVec S_ 1 := constantI S_ 1 1#1
  let main_v22 : IVec S_ 1 := (fun x v => Host.reduce IntOp.andi x v reducesTo_S16x2048x3_S_d0_1_2 h_S_) main_v21 main_c_7
  let main_v23 : IVec S_ 1 := andi main_v18 main_v22
  main_v23

def fn {F : FTy → Type} [FloatOps F] (main_arg0 : FVec F S16x3x3 .f32) (main_arg1 : FVec F S16x3 .f32) (main_arg2 : FVec F S16x3x3 .f32) (main_arg3 : FVec F S16x3 .f32) (main_arg4 : FVec F S16x2048x3 .f32) : IVec S_ 1 :=
  let main_v0 : FVec F S16x3x3 .f32 := Host.absf main_arg0
  let main_cst : FVec F S_ .f32 := constant S_ .f32 0x7F800000#32
  let main_v1 : FVec F S16x3x3 .f32 := broadcastInDim S16x3x3 ![] bcast_S_S16x3x3 main_cst
  let main_v2 : IVec S16x3x3 1 := cmpf .olt main_v0 main_v1
  let main_c : IVec S_ 1 := constantI S_ 1 1#1
  let main_v3 : IVec S_ 1 := (fun x v => Host.reduce IntOp.andi x v reducesTo_S16x3x3_S_d0_1_2 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16x3x3 .f32 := Host.absf main_arg2
  let main_cst_2 : FVec F S_ .f32 := constant S_ .f32 0x7F800000#32
  let main_v10 : FVec F S16x3x3 .f32 := broadcastInDim S16x3x3 ![] bcast_S_S16x3x3 main_cst_2
  let main_v11 : IVec S16x3x3 1 := cmpf .olt main_v9 main_v10
  let main_c_3 : IVec S_ 1 := constantI S_ 1 1#1
  let main_v12 : IVec S_ 1 := (fun x v => Host.reduce IntOp.andi x v reducesTo_S16x3x3_S_d0_1_2 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg4 main_v13 main_v16
-- ==== Kernel.lean ====
abbrev S16x3x3 : Shape := ⟨3, ![16, 3, 3]⟩
abbrev S16x3 : Shape := ⟨2, ![16, 3]⟩
abbrev S16x2048x3 : Shape := ⟨3, ![16, 2048, 3]⟩
abbrev S16x1x3 : Shape := ⟨3, ![16, 1, 3]⟩
abbrev S16x2048x1 : Shape := ⟨3, ![16, 2048, 1]⟩
abbrev S16x1x2048 : Shape := ⟨3, ![16, 1, 2048]⟩
abbrev S1x512x3 : Shape := ⟨3, ![1, 512, 3]⟩
abbrev S1x2048x3 : Shape := ⟨3, ![1, 2048, 3]⟩
abbrev S1x512x1 : Shape := ⟨3, ![1, 512, 1]⟩
abbrev S1x1x2048 : Shape := ⟨3, ![1, 1, 2048]⟩
abbrev S512x3 : Shape := ⟨2, ![512, 3]⟩
abbrev S2048x3 : Shape := ⟨2, ![2048, 3]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩
abbrev S3x2048 : Shape := ⟨2, ![3, 2048]⟩
abbrev S512x2048 : Shape := ⟨2, ![512, 2048]⟩
abbrev S16x2048 : Shape := ⟨2, ![16, 2048]⟩
abbrev S_ : Shape := ⟨0, ![]⟩
abbrev S16 : Shape := ⟨1, ![16]⟩

abbrev nBuf : Space → Nat
  | .hbm => 32
  | .vmem => 8
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S16x2048x3, .f32⟩
  | .hbm, ⟨5, _⟩ => ⟨S16x2048x3, .f32⟩
  | .hbm, ⟨6, _⟩ => ⟨S16x1x3, .f32⟩
  | .hbm, ⟨7, _⟩ => ⟨S16x2048x3, .f32⟩
  | .hbm, ⟨8, _⟩ => ⟨S16x2048x3, .f32⟩
  | .hbm, ⟨9, _⟩ => ⟨S16x2048x3, .f32⟩
  | .hbm, ⟨10, _⟩ => ⟨S16x1x3, .f32⟩
  | .hbm, ⟨11, _⟩ => ⟨S16x2048x3, .f32⟩
  | .hbm, ⟨12, _⟩ => ⟨S16x2048x3, .f32⟩
  | .hbm, ⟨13, _⟩ => ⟨S16x2048x1, .f32⟩
  | .hbm, ⟨14, _⟩ => ⟨S16x1x2048, .f32⟩
  | .hbm, ⟨15, _⟩ => ⟨S16x2048, .f32⟩
  | .hbm, ⟨16, _⟩ => ⟨S16x2048, .f32⟩
  | .hbm, ⟨17, _⟩ => ⟨S_, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x2048x3, .f32⟩
  | .local _ .vmem, ⟨3, _⟩ => ⟨S1x2048x3, .f32⟩
  | .local _ .vmem, ⟨4, _⟩ => ⟨S1x512x1, .f32⟩
  | .local _ .vmem, ⟨5, _⟩ => ⟨S1x512x1, .f32⟩
  | .local _ .vmem, ⟨6, _⟩ => ⟨S1x1x2048, .f32⟩
  | .local _ .vmem, ⟨7, _⟩ => ⟨S1x1x2048, .f32⟩
  | _, _ => ⟨S16x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16x3_S16x1x3_0_2 : S16x3.BroadcastsInDim S16x1x3 (![0, 2] : Fin 2 → Fin S16x1x3.rank)
  bcast_S16x1x3_S16x2048x3_0_1_2 : S16x1x3.BroadcastsInDim S16x2048x3 (![0, 1, 2] : Fin 3 → Fin S16x2048x3.rank)
  inb_S1x1x2048_S1x1x2048_0_0_0 : ∀ a, (![0, 0, 0] : Fin 3 → Nat) a + S1x1x2048.size a ≤ S1x1x2048.size a
  h_S1x1x2048 : 0 < S1x1x2048.numel
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S512x3_S512 : S512x3.Reduces [1] S512
  shapeCasts_S512_S512x1 : S512.ShapeCasts S512x1
  reduces_S2048x3_S2048 : S2048x3.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  transposes_S2048x3_p1_0_S3x2048 : S2048x3.Transposes [1, 0] S3x2048
  broadcasts_S512x1_S512x2048 : S512x1.Broadcasts S512x2048
  broadcasts_S1x2048_S512x2048 : S1x2048.Broadcasts S512x2048
  reduces_S512x2048_S512 : S512x2048.Reduces [1] S512
  reduces_S512x2048_S2048 : S512x2048.Reduces [0] S2048
  shapeCasts_S2048_S1x2048 : S2048.ShapeCasts S1x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S1x1x2048_S1x2048 : S1x1x2048.ShapeCasts S1x2048
  shapeCasts_S1x2048_S1x1x2048 : S1x2048.ShapeCasts S1x1x2048
  shapeCasts_S16x2048x1_S16x2048 : S16x2048x1.ShapeCasts S16x2048
  shapeCasts_S16x1x2048_S16x2048 : S16x1x2048.ShapeCasts S16x2048
  reducesTo_S16x2048_S16_d1 : S16x2048.ReducesTo [1] S16
  h_S_ : 0 < S_.numel
  bcast_S_S16 : S_.BroadcastsInDim S16 (![] : Fin 0 → Fin S16.rank)
  reducesTo_S16_S_d0 : S16.ReducesTo [0] S_
  dot_S16x2048x3_S16x3x3_S16x2048x3_2_2_1_1_0_0_wf : DotDims.WF S16x2048x3 S16x3x3 S16x2048x3 [2] [2] [1] [1] [0] [0]
  dot_S512x3_S3x2048_S512x2048_1_0_0_1_n_n_wf : DotDims.WF S512x3 S3x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x2048x3.size a
  hwx0_0 : ∀ i : grid0.Coords, EltTy.bits .f32 = 32 ∨ (Rect.block (s := S16x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S16x2048x3.size a
  hwx0_1 : ∀ i : grid0.Coords, EltTy.bits .f32 = 32 ∨ (Rect.block (s := S16x2048x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x2048x1.size a
  hwx0_2 : ∀ i : grid0.Coords, EltTy.bits .f32 = 32 ∨ (Rect.block (s := S16x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)

variable [Facts₀]

def dot_S16x2048x3_S16x3x3_S16x2048x3_2_2_1_1_0_0 : DotDims S16x2048x3 S16x3x3 S16x2048x3 where
  lhsContracting := [2]
  rhsContracting := [2]
  lhsNonContracting := [1]
  rhsNonContracting := [1]
  lhsBatch := [0]
  rhsBatch := [0]
  wf := dot_S16x2048x3_S16x3x3_S16x2048x3_2_2_1_1_0_0_wf
def dot_S512x3_S3x2048_S512x2048_1_0_0_1_n_n : DotDims S512x3 S3x2048 S512x2048 where
  lhsContracting := [1]
  rhsContracting := [0]
  lhsNonContracting := [0]
  rhsNonContracting := [1]
  lhsBatch := []
  rhsBatch := []
  wf := dot_S512x3_S3x2048_S512x2048_1_0_0_1_n_n_wf

abbrev win0_0 : Pipeline.Window sig grid0 :=
  Pipeline.Window.ofSpec (Memref.whole main_v3) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x3 : Shape := ⟨3, ![16, 3, 3]⟩
abbrev S16x3 : Shape := ⟨2, ![16, 3]⟩
abbrev S16x2048x3 : Shape := ⟨3, ![16, 2048, 3]⟩
abbrev S16x1x3 : Shape := ⟨3, ![16, 1, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048 : Shape := ⟨2, ![16, 2048]⟩
abbrev S16 : Shape := ⟨1, ![16]⟩

abbrev nBuf : Space → Nat
  | .hbm => 44
  | .vmem => 0
  | .smem => 0
  | _ => 0

abbrev bufTy : (tb : Table) → Fin (tcTables nBuf tb) → BufTy
  | .hbm, ⟨0, _⟩ => ⟨S16x3x3, .f32⟩
  | .hbm, ⟨1, _⟩ => ⟨S16x3, .f32⟩
  | .hbm, ⟨2, _⟩ => ⟨S16x3x3, .f32⟩
  | .hbm, ⟨3, _⟩ => ⟨S16x3, .f32⟩
  | .hbm, ⟨4, _⟩ => ⟨S16x2048x3, .f32⟩
  | .hbm, ⟨5, _⟩ => ⟨S16x2048x3, .f32⟩
  | .hbm, ⟨6, _⟩ => ⟨S16x1x3, .f32⟩
  | .hbm, ⟨7, _⟩ => ⟨S16x2048x3, .f32⟩
  | .hbm, ⟨8, _⟩ => ⟨S16x2048x3, .f32⟩
  | .hbm, ⟨9, _⟩ => ⟨S16x2048x3, .f32⟩
  | .hbm, ⟨10, _⟩ => ⟨S16x1x3, .f32⟩
  | .hbm, ⟨11, _⟩ => ⟨S16x2048x3, .f32⟩
  | .hbm, ⟨12, _⟩ => ⟨S16x2048x3, .f32⟩
  | .hbm, ⟨13, _⟩ => ⟨S16x2048x1x3, .f32⟩
  | .hbm, ⟨14, _⟩ => ⟨S16x1x2048x3, .f32⟩
  | .hbm, ⟨15, _⟩ => ⟨S16x2048x2048x3, .f32⟩
  | .hbm, ⟨16, _⟩ => ⟨S16x2048x2048x3, .f32⟩
  | .hbm, ⟨17, _⟩ => ⟨S16x2048x2048x3, .f32⟩
  | .hbm, ⟨18, _⟩ => ⟨S16x2048x2048x3, .f32⟩
  | .hbm, ⟨19, _⟩ => ⟨S_, .f32⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S16x3_S16x1x3_0_2 : S16x3.BroadcastsInDim S16x1x3 (![0, 2] : Fin 2 → Fin S16x1x3.rank)
  bcast_S16x1x3_S16x2048x3_0_1_2 : S16x1x3.BroadcastsInDim S16x2048x3 (![0, 1, 2] : Fin 3 → Fin S16x2048x3.rank)
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048x2048_S16x2048_d1 : S16x2048x2048.ReducesTo [1] S16x2048
  reducesTo_S16x2048_S16_d1 : S16x2048.ReducesTo [1] S16
  bcast_S_S16 : S_.BroadcastsInDim S16 (![] : Fin 0 → Fin S16.rank)
  reducesTo_S16_S_d0 : S16.ReducesTo [0] S_
  dot_S16x2048x3_S16x3x3_S16x2048x3_2_2_1_1_0_0_wf : DotDims.WF S16x2048x3 S16x3x3 S16x2048x3 [2] [2] [1] [1] [0] [0]

variable [Facts₀]

def dot_S16x2048x3_S16x3x3_S16x2048x3_2_2_1_1_0_0 : DotDims S16x2048x3 S16x3x3 S16x2048x3 where
  lhsContracting := [2]
  rhsContracting := [2]
  lhsNonContracting := [1]
  rhsNonContracting := [1]
  lhsBatch := [0]
  rhsBatch := [0]
  wf := dot_S16x2048x3_S16x3x3_S16x2048x3_2_2_1_1_0_0_wf

class Facts : Prop extends Facts₀ where

variable [Facts]
-- ==== Proof.PointContents.lean ====
/-
  What one grid point leaves in the two output blocks.

  A grid point is one block of 512 queries of one sample against that sample's 2048 targets. Into the block of
  per-query minima it stores the row minima of its tile, once, over the whole block. Into the block of per-target
  minima it stores the lesser of what the block held and the column minima of its tile; at a sample's first block
  of queries it first overwrites the block with `+inf`, and the update then reads that back, so there the result
  does not depend on what the block held before.
-/
import proofs.«160023_j88390426951951_1_alg».proof.Proof.Gen.KernelIdeal.Frame
import Idealize.ShloMosaic.Lib.Pipeline.Value
import Idealize.ShloMosaic.Lib.Tactic

noncomputable section

namespace Cert.Chamfer.Point

open Idealize.ShloMosaic Idealize.ShloMosaic.TcCoe Idealize.SL.Sem Cert.KernelIdeal Cert.KernelIdeal.Gen

variable {F : FTy → Type} [FloatOps F]

/-- Every store and load of the body addresses its block from the origin. -/
theorem origin : (![0, 0, 0] : Fin 3 → Nat) = fun _ => 0 := funext fun a => by fin_cases a <;> rfl

/-- At a sample's first block of queries, the per-query block ends at the tile's row minima. -/
theorem first_queries (c : Dev nD) (i : grid0.Coords) (arg2 : Memref sig .tc .vmem S1x512x3 .f32) (harg2 : arg2.IsWhole) (arg3 : Memref sig .tc .vmem S1x2048x3 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x3 .f32) (x1 : Vec F S1x2048x3 .f32) :
    out0_A_2 c i arg2 harg2 arg3 harg3 arg4 harg4 arg5 harg5 hc0 x0 x1 = k0_pay5 x0 x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero origin]
  simp only [View.readAt_eq_ld, harg2.read_unread, harg3.read_unread, View.ld_unit_zero (S := S1x512x3) origin,
    View.ld_unit_zero (S := S1x2048x3) origin]

/-- At a sample's first block of queries, the per-target block ends at the lesser of `+inf` and the tile's column
    minima: the reset is stored, read back, and updated. -/
theorem first_targets (c : Dev nD) (i : grid0.Coords) (arg2 : Memref sig .tc .vmem S1x512x3 .f32) (harg2 : arg2.IsWhole) (arg3 : Memref sig .tc .vmem S1x2048x3 .f32) (harg3 : arg3.IsWhole) (arg4 : Memref sig .tc .vmem S1x512x1 .f32) (harg4 : arg4.IsWhole) (arg5 : Memref sig .tc .vmem S1x1x2048 .f32) (harg5 : arg5.IsWhole) (hc0 : cond0_0 i)
    (x0 : Vec F S1x512x3 .f32) (x1 : Vec F S1x2048x3 .f32) :
    out0_A_3 c i arg2 harg2 arg3 harg3 arg4 harg4 arg5 harg5 hc0 x0 x1 = k0_pay1 (k0_pay4 x0 x1) (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x2048) origin, View.readCov_unit_zero (S := S1x1x2048) _ origin]
  simp only [View.readAt_eq_ld, harg2.read_unread, harg3.read_unread, View.ld_unit_zero (S := S1x512x3) origin,
    View.ld_unit_zero (S := S1x2048x3) origin]

/-- At a later block of queries, the per-query block again ends at the tile's row minima. -/
theorem later_queries (c : Dev nD) (i : grid0.Coords) (arg2 : Memref sig .tc .vmem S1x512x3 .f32) (harg2 : arg2.IsWhole) (arg3 : Memref sig .tc .vmem S1x2048x3 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x3 .f32) (x1 : Vec F S1x2048x3 .f32) (xo3 : Vec F S1x1x2048 .f32) :
    out0_B_2 c i arg2 harg2 arg3 harg3 arg4 harg4 arg5 harg5 hc0 x0 x1 xo3 = k0_pay5 x0 x1 := by
  unfold out0_B_2
  rw [View.read_writes_eq_canon _ _ _ (cover0_B_2 c i arg2 harg2 arg3 harg3 arg4 harg4 arg5 harg5 hc0 x0 x1 xo3)]
  unfold kernelRun0_B
  dsimp only
  sl_unfold_words
  rw [View.canon_unit_zero origin]
  simp only [View.readAt_eq_ld, harg2.read_unread, harg3.read_unread, View.ld_unit_zero (S := S1x512x3) origin,
    View.ld_unit_zero (S := S1x2048x3) origin]

/-- At a later block of queries, the per-target block ends at the lesser of what it held, `xo3`, and the tile's
    column minima. -/
theorem later_targets (c : Dev nD) (i : grid0.Coords) (arg2 : Memref sig .tc .vmem S1x512x3 .f32) (harg2 : arg2.IsWhole) (arg3 : Memref sig .tc .vmem S1x2048x3 .f32) (harg3 : arg3.IsWhole) (arg4 : Memref sig .tc .vmem S1x512x1 .f32) (harg4 : arg4.IsWhole) (arg5 : Memref sig .tc .vmem S1x1x2048 .f32) (harg5 : arg5.IsWhole) (hc0 : ¬cond0_0 i)
    (x0 : Vec F S1x512x3 .f32) (x1 : Vec F S1x2048x3 .f32) (xo3 : Vec F S1x1x2048 .f32) :
    out0_B_3 c i arg2 harg2 arg3 harg3 arg4 harg4 arg5 harg5 hc0 x0 x1 xo3 = k0_pay1 (k0_pay4 x0 x1) xo3 := by
  unfold out0_B_3
  rw [View.read_writes_eq_canon _ _ _ (cover0_B_3 c i arg2 harg2 arg3 harg3 arg4 harg4 arg5 harg5 hc0 x0 x1 xo3)]
  unfold kernelRun0_B
  dsimp only
  sl_unfold_words
  rw [View.canon_unit_zero origin]
  simp only [View.readAt_eq_ld, harg2.read_unread, harg3.read_unread, harg5.read_unread,
    View.ld_unit_zero (S := S1x512x3) origin, View.ld_unit_zero (S := S1x2048x3) origin,
    View.ld_unit_zero (S := S1x1x2048) origin]

end Cert.Chamfer.Point

end
-- ==== Proof.BlockReads.lean ====
/-
  Where a grid point's blocks sit in the arrays.

  The grid has 16 samples by 4 blocks of 512 queries; point `t` is sample `t / 4`, block `t % 4`. Its block of
  queries is rows `512 (t % 4)` to `512 (t % 4) + 511` of sample `t / 4` of the first cloud; its block of targets is
  all 2048 rows of that sample of the second cloud. Its block of per-query minima sits at the same rows of that
  sample's column of results; its block of per-target minima is that sample's whole row of results.
-/
import proofs.«160023_j88390426951951_1_alg».proof.Proof.Gen.KernelIdeal.Frame
import Idealize.ShloMosaic.Lib.ValueIdx
import Idealize.ShloMosaic.Lib.Pipeline.Value

noncomputable section

namespace Cert.Chamfer.Point

open Idealize.ShloMosaic Idealize.ShloMosaic.ValueIdx Idealize.ShloMosaic.TcCoe Idealize.SL.Sem Cert.KernelIdeal Cert.KernelIdeal.Gen

variable {F : FTy → Type} [FloatOps F]
variable (m : (ℓ : Loc nD τ sig) → Buf (Elt F) ℓ)

/-- The block of queries of point `t`, -/
abbrev queries (c : Dev nD) (t : Fin cfg0.N) : Vec F S1x512x3 .f32 := iblk m c 0 t
/-- its block of targets, -/
abbrev targets (c : Dev nD) (t : Fin cfg0.N) : Vec F S1x2048x3 .f32 := iblk m c 1 t
/-- the first cloud (the points under the current pose) as the region finds it, -/
abbrev cloudT (c : Dev nD) : Vec F S16x2048x3 .f32 := V m c main_v3
/-- and the second (under the previous pose). -/
abbrev cloudP (c : Dev nD) : Vec F S16x2048x3 .f32 := V m c main_v7

/-- The printed index maps, decided over the grid: sample `t / 4` on the leading axis of every window, block
    `t % 4` on the row axis of the two windows that move with the block of queries, zero elsewhere. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- Row `r` of point `t`'s block of queries is row `512 (t % 4) + r` of sample `t / 4` of the first cloud. -/
theorem queries_apply (c : Dev nD) (t : Fin cfg0.N) (u : Fin 1) (r : Fin 512) (i : Fin 3) (b : Fin 16) (p : Fin 2048)
    (hb : b.val = t.val / 4) (hp : p.val = 512 * (t.val % 4) + r.val) :
    queries m c t (ix3 u r i) = cloudT m c (ix3 b p i) := by
  obtain ⟨e0, e1, e2, -⟩ := index_facts t
  have hu : u.val = 0 := by omega
  show V m c main_v3 (((cfg0.win 0).blk t).view.emb (ix3 u r i)) = V m c main_v3 (ix3 b p i)
  refine congrArg (V m c main_v3) (funext fun a => Fin.ext ?_)
  match a with
  | ⟨0, _⟩ => show win0_0.index t (0 : Fin 3) * 1 + 1 * u.val = b.val; omega
  | ⟨1, _⟩ => show win0_0.index t (1 : Fin 3) * 512 + 1 * r.val = p.val; omega
  | ⟨2, _⟩ => show win0_0.index t (2 : Fin 3) * 3 + 1 * i.val = i.val; omega

/-- Row `q` of point `t`'s block of targets is row `q` of sample `t / 4` of the second cloud. -/
theorem targets_apply (c : Dev nD) (t : Fin cfg0.N) (u : Fin 1) (q : Fin 2048) (i : Fin 3) (b : Fin 16)
    (hb : b.val = t.val / 4) :
    targets m c t (ix3 u q i) = cloudP m c (ix3 b q i) := by
  obtain ⟨-, -, -, e0, e1, e2, -⟩ := index_facts t
  have hu : u.val = 0 := by omega
  show V m c main_v7 (((cfg0.win 1).blk t).view.emb (ix3 u q i)) = V m c main_v7 (ix3 b q i)
  refine congrArg (V m c main_v7) (funext fun a => Fin.ext ?_)
  match a with
  | ⟨0, _⟩ => show win0_1.index t (0 : Fin 3) * 1 + 1 * u.val = b.val; omega
  | ⟨1, _⟩ => show win0_1.index t (1 : Fin 3) * 2048 + 1 * q.val = q.val; omega
  | ⟨2, _⟩ => show win0_1.index t (2 : Fin 3) * 3 + 1 * i.val = i.val; omega

end Cert.Chamfer.Point

end
-- ==== Proof.Distance.lean ====
/-
  The pairwise distance of two transformed point clouds, as both programs compute it over the extended
  reals. For a query point `a` and a target point `b` in three coordinates the reference takes the root of
  `Σ_i (a_i - b_i)² + ε`; the kernel takes the root of `max (Σ_i a_i² + Σ_i b_i² - 2 Σ_i a_i b_i) 0 + ε`. On
  finite reals the two radicands are one number: the square of a difference expands, and a sum of squares is
  not negative, so the clamp at zero changes nothing. The expansion distributes a product over a sum, which
  fails at the infinities; that is the one place the finiteness of the inputs is used.
-/
import Idealize.ShloMosaic.PureOps.Ideal
import Idealize.ShloMosaic.PureOps.Ideal.Laws

noncomputable section

namespace Cert.Chamfer

open Idealize.ShloMosaic

/-! ## The float words the programs spell -/

/-- The word of `2.0`, the factor of the cross term, denotes the real `2`. -/
theorem word_two : Ideal.ofBits .f32 0x40000000#32 = ((2 : ℝ) : EReal) := by
  simp [Ideal.ofBits, Ideal.ieee, -EReal.coe_mul]; norm_num

/-- The word of `+inf`, from which every minimum starts, denotes the top of the extended reals. -/
theorem word_inf : Ideal.ofBits .f32 0x7F800000#32 = (⊤ : EReal) := by
  simp [Ideal.ofBits, Ideal.ieee]

/-- The small constant both programs add under the root: the extended real its 32-bit word denotes. The
    same word stands in both programs, so its value is never needed. -/
def eps : EReal := Ideal.ofBits .f32 0x322BCC77#32

/-! ## The two radicands -/

/-- The reference's radicand: the sum over the three coordinates of the squared difference. -/
def sqDiff (a b : Fin 3 → EReal) : EReal := ∑ i, (a i - b i) * (a i - b i)

/-- The kernel's radicand before its clamp: the two squared norms less twice the inner product, the factor
    two as the word the kernel spells. -/
def sqExpand (a b : Fin 3 → EReal) : EReal :=
  (∑ i, a i * a i) + (∑ i, b i * b i) - Ideal.ofBits .f32 0x40000000#32 * ∑ i, a i * b i

/-- On real coordinates the clamped expansion is the sum of squared differences: `(x - y)² = x² + y² - 2xy`
    coordinate by coordinate, and the sum of squares is not negative. -/
theorem clamp_expand_eq (a b : Fin 3 → ℝ) :
    max (sqExpand (fun i => (a i : EReal)) (fun i => (b i : EReal))) 0
      = sqDiff (fun i => (a i : EReal)) (fun i => (b i : EReal)) := by
  unfold sqExpand sqDiff
  rw [word_two]
  simp only [Fin.sum_univ_three]
  have hx : a 0 * a 0 + a 1 * a 1 + a 2 * a 2 + (b 0 * b 0 + b 1 * b 1 + b 2 * b 2)
      - 2 * (a 0 * b 0 + a 1 * b 1 + a 2 * b 2)
      = (a 0 - b 0) * (a 0 - b 0) + (a 1 - b 1) * (a 1 - b 1) + (a 2 - b 2) * (a 2 - b 2) := by ring
  have hn : (0 : ℝ) ≤ (a 0 - b 0) * (a 0 - b 0) + (a 1 - b 1) * (a 1 - b 1) + (a 2 - b 2) * (a 2 - b 2) :=
    add_nonneg (add_nonneg (mul_self_nonneg _) (mul_self_nonneg _)) (mul_self_nonneg _)
  norm_cast
  rw [hx]
  exact max_eq_left (EReal.coe_nonneg.mpr hn)

end Cert.Chamfer

end
-- ==== Proof.LibColumn.lean ====
/-
  A vector laid out as a one-column matrix, read at an index.

  Reshaping an array of `a` entries to `a` rows of one entry each moves nothing: row-major, entry `(i, u)` of the
  column sits at position `i * 1 + u`, and the unit coordinate `u` can only be `0`, so that position is `i`, where
  entry `i` of the vector sits. Stated with both indices built from their coordinates, so that the lemma applies
  to a printed reshape by unification.
-/
import Idealize.ShloMosaic.Lib.ValueLayout

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The same at an arbitrary index `j` of the column: it reads the operand at `j`'s row. -/
theorem shapeCast_a_a1_apply' {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) := by
  rw [eq_ix2 j]
  exact shapeCast_a_a1_apply x h (j 0) (j 1)

end Cert.LibColumn

end
-- ==== Proof.LibColumnBroadcast.lean ====
/-
  A one-column matrix spread over many columns, read at an index.

  Broadcasting an array of `a` rows of one entry each to `a` rows of `b` entries repeats each row's entry along
  its row: entry `(p, c)` of the result is the operand's entry `(p, 0)`, whatever the column `c`. Stated with both
  indices built from their coordinates, so that the lemma applies to a printed broadcast by unification.
-/
import Idealize.ShloMosaic.Lib.ValueLayout

noncomputable section

namespace Cert.LibColumnBroadcast

open Idealize.ShloMosaic Idealize.ShloMosaic.ValueIdx

variable {α : Type}

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast

end
-- ==== Proof.LibRowSum3.lean ====
/-
  The sum along the rows of a matrix of three columns, read at a row.

  A vector reduction that adds along the second axis of an `[n, 3]` array, started from the zero word, holds at row
  `r` the sum of that row's three entries: over the extended reals the reduction is the plain sum over the
  reduced axis's coordinates, and the index with coordinate `k` put back at row `r` is `(r, k)`.
-/
import Idealize.ShloMosaic.Lib.ValueIdx
import Idealize.ShloMosaic.PureOps.Ideal.Laws

noncomputable section

namespace Cert.LibRowSum3

open Idealize.ShloMosaic Idealize.ShloMosaic.ValueIdx

/-- The add-reduction of an `[n, 3]` array along its second axis, from the zero word, is at row `r` the sum of the
    three entries of that row. -/
theorem multiReduction_add_n3_apply {n : ℕ} (v : FVec Ideal ⟨2, ![n, 3]⟩ .f32)
    (h : (⟨2, ![n, 3]⟩ : Shape).Reduces [1] ⟨1, ![n]⟩) (hφ : FKind.Formats .f32)
    (hacc : (0x00000000#32 : BitVec 32) = FKind.add.neutral .f32 hφ) (r : Fin n) :
    multiReduction (F := Ideal) .add [1] ⟨1, ![n]⟩ v 0x00000000#32 h hφ hacc (ix1 r) = ∑ k : Fin 3, v (ix2 r k) := by
  refine (Ideal.multiReduction_add_single v 0x00000000#32 h hφ hacc (ix1 r)).trans ?_
  exact Finset.sum_congr rfl fun k _ => congrArg v (funext fun a => Fin.ext (by
    match a with
    | ⟨0, _⟩ => rfl
    | ⟨1, _⟩ => rfl))

end Cert.LibRowSum3

end
-- ==== Proof.TileDistance.lean ====
/-
  One tile of the distance matrix, entry by entry.

  The kernel's body takes a block of 512 query points and the 2048 target points of one sample, three coordinates
  each. Entry `(p, q)` of the tile it forms is the root of the clamped expansion of the squared distance between
  query point `p` and target point `q`, plus the small constant: the column of squared norms of the queries spread
  along the rows, the row of squared norms of the targets spread along the columns, less twice the matrix product of
  the queries with the transposed targets. Over the extended reals the narrowing of both operands to sixteen bits
  before the product changes no value, and the product into a zero accumulator is the plain sum of three products.
-/
import proofs.«160023_j88390426951951_1_alg».proof.Proof.Gen.KernelIdeal.Skeleton
import proofs.«160023_j88390426951951_1_alg».proof.Proof.Distance
import proofs.«160023_j88390426951951_1_alg».proof.Proof.LibColumn
import proofs.«160023_j88390426951951_1_alg».proof.Proof.LibColumnBroadcast
import proofs.«160023_j88390426951951_1_alg».proof.Proof.LibRowSum3
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer.Tile

open Idealize.ShloMosaic Idealize.ShloMosaic.ValueIdx Idealize.ShloMosaic.TcCoe Cert.KernelIdeal Cert.KernelIdeal.Gen

/-! ## The squared norms, spread over the tile -/

/-- The column of squared row norms of an `[n, 3]` array, spread along the rows of an `[n, b]` tile: entry
    `(p, q)` is the sum of the squares of row `p`. -/
theorem normColumn_apply {n b : ℕ} (v : FVec Ideal ⟨2, ![n, 3]⟩ .f32)
    (hr : (⟨2, ![n, 3]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, b]⟩)
    (p : Fin n) (q : Fin b) :
    broadcastTo ⟨2, ![n, b]⟩ (shapeCast ⟨2, ![n, 1]⟩
        (multiReduction (F := Ideal) .add [1] ⟨1, ![n]⟩ (mulf v v) 0x00000000#32 hr hφ hacc) hc) hb (ix2 p q)
      = ∑ k : Fin 3, v (ix2 p k) * v (ix2 p k) :=
  (Cert.LibColumnBroadcast.broadcastTo_a1_ab_apply _ hb p q).trans
    ((Cert.LibColumn.shapeCast_a_a1_apply _ hc p 0).trans
      (Cert.LibRowSum3.multiReduction_add_n3_apply (mulf v v) hr hφ hacc p))

/-- The row of squared row norms of an `[n, 3]` array — the column of norms transposed — spread along the columns
    of an `[a, n]` tile: entry `(p, q)` is the sum of the squares of row `q`. -/
theorem normRow_apply {n a : ℕ} (v : FVec Ideal ⟨2, ![n, 3]⟩ .f32)
    (hr : (⟨2, ![n, 3]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (ht : (⟨2, ![n, 1]⟩ : Shape).Transposes [1, 0] ⟨2, ![1, n]⟩)
    (hb : (⟨2, ![1, n]⟩ : Shape).Broadcasts ⟨2, ![a, n]⟩) (p : Fin a) (q : Fin n) :
    broadcastTo ⟨2, ![a, n]⟩ (transpose ⟨2, ![1, n]⟩ [1, 0] (shapeCast ⟨2, ![n, 1]⟩
        (multiReduction (F := Ideal) .add [1] ⟨1, ![n]⟩ (mulf v v) 0x00000000#32 hr hφ hacc) hc) ht) hb (ix2 p q)
      = ∑ k : Fin 3, v (ix2 q k) * v (ix2 q k) :=
  (broadcastTo_1b_ab_apply _ hb p q).trans
    ((transpose_ix2_apply _ ht 0 q).trans
      ((Cert.LibColumn.shapeCast_a_a1_apply _ hc q 0).trans
        (Cert.LibRowSum3.multiReduction_add_n3_apply (mulf v v) hr hφ hacc q)))

/-! ## The cross term -/

/-- In the product of the queries with the transposed targets, the left operand's index at output `(p, q)` and
    contraction coordinate `k` has row `p`, -/
theorem cross_lhs_row (j : S512x2048.Idx) (k : dot_S512x3_S3x2048_S512x2048_1_0_0_1_n_n.contr.Idx) :
    (dot_S512x3_S3x2048_S512x2048_1_0_0_1_n_n.lhsIdx j k 0).val = (j 0).val := by
  unfold DotDims.lhsIdx
  rw [dif_neg (show ¬(0 : Fin S512x3.rank) ∈ dot_S512x3_S3x2048_S512x2048_1_0_0_1_n_n.lhsBatch by decide), dif_pos (show (0 : Fin S512x3.rank) ∈ dot_S512x3_S3x2048_S512x2048_1_0_0_1_n_n.lhsNonContracting by decide)]
  rfl
/-- and column `k`; -/
theorem cross_lhs_coord (j : S512x2048.Idx) (k : dot_S512x3_S3x2048_S512x2048_1_0_0_1_n_n.contr.Idx) :
    (dot_S512x3_S3x2048_S512x2048_1_0_0_1_n_n.lhsIdx j k 1).val = (k ⟨0, by decide⟩).val :=
  dot_S512x3_S3x2048_S512x2048_1_0_0_1_n_n.lhsIdx_val_of_single rfl j k
/-- the right operand's index has row `k` -/
theorem cross_rhs_coord (j : S512x2048.Idx) (k : dot_S512x3_S3x2048_S512x2048_1_0_0_1_n_n.contr.Idx) :
    (dot_S512x3_S3x2048_S512x2048_1_0_0_1_n_n.rhsIdx j k 0).val = (k ⟨0, by decide⟩).val :=
  dot_S512x3_S3x2048_S512x2048_1_0_0_1_n_n.rhsIdx_val_of_single rfl j k
/-- and column `q`. -/
theorem cross_rhs_col (j : S512x2048.Idx) (k : dot_S512x3_S3x2048_S512x2048_1_0_0_1_n_n.contr.Idx) :
    (dot_S512x3_S3x2048_S512x2048_1_0_0_1_n_n.rhsIdx j k 1).val = (j 1).val := by
  unfold DotDims.rhsIdx
  rw [dif_neg (show ¬(1 : Fin S3x2048.rank) ∈ dot_S512x3_S3x2048_S512x2048_1_0_0_1_n_n.rhsBatch by decide), dif_pos (show (1 : Fin S3x2048.rank) ∈ dot_S512x3_S3x2048_S512x2048_1_0_0_1_n_n.rhsNonContracting by decide)]
  rfl

/-- The matrix product of the queries, narrowed to sixteen bits, with the narrowed targets transposed, into a zero
    accumulator: entry `(p, q)` is the inner product of query row `p` with target row `q`. The narrowing is the
    identity on extended reals, and the transpose only exchanges the target's two coordinates. -/
theorem cross_apply (v4 : FVec Ideal S512x3 .f32) (v6 : FVec Ideal S2048x3 .f32) (hlt : FTy.bits .bf16 < FTy.bits .f32)
    (ht : S2048x3.Transposes [1, 0] S3x2048) (p : Fin 512) (q : Fin 2048) :
    matmul dot_S512x3_S3x2048_S512x2048_1_0_0_1_n_n none (truncf .bf16 v4 hlt) (transpose S3x2048 [1, 0] (truncf .bf16 v6 hlt) ht)
        (constant (F := Ideal) S512x2048 .f32 0x00000000#32) (ix2 p q)
      = ∑ k : Fin 3, v4 (ix2 p k) * v6 (ix2 q k) := by
  refine (Ideal.matmul_constant_zero_apply dot_S512x3_S3x2048_S512x2048_1_0_0_1_n_n none (truncf .bf16 v4 hlt)
    (transpose S3x2048 [1, 0] (truncf .bf16 v6 hlt) ht) (ix2 p q)).trans ?_
  rw [← Equiv.sum_comp (ValueIdx.contrEquiv1 dot_S512x3_S3x2048_S512x2048_1_0_0_1_n_n 3 rfl rfl).symm]
  refine Finset.sum_congr rfl fun k _ => ?_
  have hk := ValueIdx.contrEquiv1_symm_val dot_S512x3_S3x2048_S512x2048_1_0_0_1_n_n 3 rfl rfl k
  have el : dot_S512x3_S3x2048_S512x2048_1_0_0_1_n_n.lhsIdx (ix2 p q) ((ValueIdx.contrEquiv1 dot_S512x3_S3x2048_S512x2048_1_0_0_1_n_n 3 rfl rfl).symm k) = ix2 p k := funext fun a => Fin.ext (by
    match a with
    | ⟨0, _⟩ => exact cross_lhs_row _ _
    | ⟨1, _⟩ => exact (cross_lhs_coord _ _).trans hk)
  have er : dot_S512x3_S3x2048_S512x2048_1_0_0_1_n_n.rhsIdx (ix2 p q) ((ValueIdx.contrEquiv1 dot_S512x3_S3x2048_S512x2048_1_0_0_1_n_n 3 rfl rfl).symm k) = ix2 k q := funext fun a => Fin.ext (by
    match a with
    | ⟨0, _⟩ => exact (cross_rhs_coord _ _).trans hk
    | ⟨1, _⟩ => exact cross_rhs_col _ _)
  rw [el, er]
  exact congrArg (v4 (ix2 p k) * ·) (transpose_ix2_apply (truncf .bf16 v6 hlt) ht k q)

/-! ## An entry of the tile -/

/-- Entry `(p, q)` of the tile the body forms from a block `x0` of queries and the block `x1` of targets: the root of
    the clamped expansion of the squared distance between query `p` and target `q`, plus the small constant. -/
theorem tile_apply (x0 : Vec Ideal S1x512x3 .f32) (x1 : Vec Ideal S1x2048x3 .f32) (p : Fin 512) (q : Fin 2048) :
    k0_pay3 (F := Ideal) x0 x1 (ix2 p q)
      = Ideal.sqrt (max (sqExpand (fun i => x0 (ix3 (0 : Fin 1) p i)) (fun i => x1 (ix3 (0 : Fin 1) q i))) 0 + eps) := by
  have e4 : ∀ k : Fin 3, shapeCast S512x3 x0 shapeCasts_S1x512x3_S512x3 (ix2 p k) = x0 (ix3 (0 : Fin 1) p k) :=
    fun k => shapeCast_1ab_ab_apply x0 shapeCasts_S1x512x3_S512x3 p k
  have e6 : ∀ k : Fin 3, shapeCast S2048x3 x1 shapeCasts_S1x2048x3_S2048x3 (ix2 q k) = x1 (ix3 (0 : Fin 1) q k) :=
    fun k => shapeCast_1ab_ab_apply x1 shapeCasts_S1x2048x3_S2048x3 q k
  have eA := normColumn_apply (b := 2048) (shapeCast S512x3 x0 shapeCasts_S1x512x3_S512x3) reduces_S512x3_S512 (.inl rfl) rfl
    shapeCasts_S512_S512x1 broadcasts_S512x1_S512x2048 p q
  have eB := normRow_apply (a := 512) (shapeCast S2048x3 x1 shapeCasts_S1x2048x3_S2048x3) reduces_S2048x3_S2048 (.inl rfl) rfl
    shapeCasts_S2048_S2048x1 transposes_S2048x1_p1_0_S1x2048 broadcasts_S1x2048_S512x2048 p q
  have eC := cross_apply (shapeCast S512x3 x0 shapeCasts_S1x512x3_S512x3) (shapeCast S2048x3 x1 shapeCasts_S1x2048x3_S2048x3)
    bitsLt_bf16_f32 transposes_S2048x3_p1_0_S3x2048 p q
  simp only [e4, e6] at eA eB eC
  unfold k0_pay3 sqExpand eps
  show Ideal.sqrt (max ((_ + _) - Ideal.ofBits .f32 0x40000000#32 * _) (Ideal.ofBits .f32 0x00000000#32)
    + Ideal.ofBits .f32 0x322BCC77#32) = _
  rw [eA, eB, eC, Ideal.ofBits_zero_f32]

end Cert.Chamfer.Tile

end
-- ==== Proof.LibMinAxis.lean ====
/-
  The minimum along one axis of a matrix, read at an index.

  A vector reduction that takes the minimum along one axis of an `[a, b]` array, started from a given word, holds
  at each kept coordinate the minimum of that word's value and the entries along the reduced axis. Over the
  extended reals the minimum commutes and associates, so the reduction is the fold of `min` over the reduced
  axis's coordinates in any order; and the index with coordinate `k` put back is `(r, k)` when the second axis is
  reduced, `(k, c)` when the first is.
-/
import Idealize.ShloMosaic.Lib.ValueIdx
import Idealize.ShloMosaic.PureOps.Ideal.Laws

noncomputable section

namespace Cert.LibMinAxis

open Idealize.ShloMosaic Idealize.ShloMosaic.ValueIdx

/-- The min-reduction of an `[a, b]` array along its second axis is, at row `r`, the fold of `min` from the starting
    word's value over the `b` entries of that row. -/
theorem multiReduction_minimumf_rows_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction (F := Ideal) .minimumf [1] ⟨1, ![a]⟩ v acc h hφ hacc (ix1 r)
      = (Finset.univ : Finset (Fin b)).fold min (Ideal.ofBits .f32 acc) (fun k => v (ix2 r k)) := by
  refine (multiReduction_minimumf_eq_fold v acc h hφ hacc (ix1 r)).trans ?_
  refine (h.fold_filter_drop_single FloatOps.minimumf (FloatOps.ofBits .f32 acc) v (ix1 r)).trans ?_
  exact congrArg (Finset.fold min (Ideal.ofBits .f32 acc) · (Finset.univ : Finset (Fin b)))
    (funext fun k => congrArg v (funext fun d => Fin.ext (by
      match d with
      | ⟨0, _⟩ => rfl
      | ⟨1, _⟩ => rfl)))

/-- The min-reduction of an `[a, b]` array along its first axis is, at column `c`, the fold of `min` from the
    starting word's value over the `a` entries of that column. -/
theorem multiReduction_minimumf_cols_apply {a b : ℕ} (v : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (c : Fin b) :
    multiReduction (F := Ideal) .minimumf [0] ⟨1, ![b]⟩ v acc h hφ hacc (ix1 c)
      = (Finset.univ : Finset (Fin a)).fold min (Ideal.ofBits .f32 acc) (fun k => v (ix2 k c)) := by
  refine (multiReduction_minimumf_eq_fold v acc h hφ hacc (ix1 c)).trans ?_
  refine (h.fold_filter_drop_single FloatOps.minimumf (FloatOps.ofBits .f32 acc) v (ix1 c)).trans ?_
  exact congrArg (Finset.fold min (Ideal.ofBits .f32 acc) · (Finset.univ : Finset (Fin a)))
    (funext fun k => congrArg v (funext fun d => Fin.ext (by
      match d with
      | ⟨0, _⟩ => rfl
      | ⟨1, _⟩ => rfl)))

end Cert.LibMinAxis

end
-- ==== Proof.TileMinima.lean ====
/-
  The minima the body takes over one tile, and how it folds them into what it keeps.

  From the tile of distances between a block of 512 queries and the 2048 targets the body keeps two things. For
  each query of the block, the least distance to any target: the minimum along that query's row of the tile, which
  is final, since the row holds every target. For each target, the least distance to any query seen so far: the
  minimum along that target's column of the tile, folded by `min` into what earlier blocks of queries left there.
  At the first block of a sample what was there is first replaced by `+inf`, the value from which every minimum
  starts.
-/
import proofs.«160023_j88390426951951_1_alg».proof.Proof.TileDistance
import proofs.«160023_j88390426951951_1_alg».proof.Proof.LibMinAxis

noncomputable section

namespace Cert.Chamfer.Tile

open Idealize.ShloMosaic Idealize.ShloMosaic.ValueIdx Idealize.ShloMosaic.TcCoe Cert.KernelIdeal Cert.KernelIdeal.Gen

/-- What the body stores for the queries: at query `p` of the block, the fold of `min` from `+inf` over row `p` of
    the tile, whatever the two unit coordinates. -/
theorem rowMin_apply (x0 : Vec Ideal S1x512x3 .f32) (x1 : Vec Ideal S1x2048x3 .f32) (u : Fin 1) (p : Fin 512) (w : Fin 1) :
    k0_pay5 (F := Ideal) x0 x1 (ix3 u p w)
      = (Finset.univ : Finset (Fin 2048)).fold min (Ideal.ofBits .f32 0x7F800000#32)
          (fun q => k0_pay3 (F := Ideal) x0 x1 (ix2 p q)) := by
  unfold k0_pay5
  exact (shapeCast_ab_1ab_apply _ shapeCasts_S512x1_S1x512x1 u p w).trans
    ((Cert.LibColumn.shapeCast_a_a1_apply _ shapeCasts_S512_S512x1 p w).trans
      (Cert.LibMinAxis.multiReduction_minimumf_rows_apply (k0_pay3 (F := Ideal) x0 x1) 0x7F800000#32 reduces_S512x2048_S512
        (.inl rfl) rfl p))

/-- The tile's column minima: at target `q`, the fold of `min` from `+inf` over column `q` of the tile. -/
theorem colMin_apply (x0 : Vec Ideal S1x512x3 .f32) (x1 : Vec Ideal S1x2048x3 .f32) (u : Fin 1) (q : Fin 2048) :
    k0_pay4 (F := Ideal) x0 x1 (ix2 u q)
      = (Finset.univ : Finset (Fin 512)).fold min (Ideal.ofBits .f32 0x7F800000#32)
          (fun r => k0_pay3 (F := Ideal) x0 x1 (ix2 r q)) := by
  unfold k0_pay4
  exact (shapeCast_a_1a_apply _ shapeCasts_S2048_S1x2048 u q).trans
    (Cert.LibMinAxis.multiReduction_minimumf_cols_apply (k0_pay3 (F := Ideal) x0 x1) 0x7F800000#32 reduces_S512x2048_S2048
      (.inl rfl) rfl q)

/-- The reset at a sample's first block of queries: `+inf` at every target. -/
theorem reset_apply (j : S1x1x2048.Idx) : (k0_pay2 (F := Ideal)) j = Ideal.ofBits .f32 0x7F800000#32 := rfl

/-- The update of what is kept for the targets: at target `q`, the lesser of what was there and the tile's column
    minimum. -/
theorem update_apply (v32 : FVec Ideal S1x2048 .f32) (v36 : Vec Ideal S1x1x2048 .f32) (u w : Fin 1) (q : Fin 2048) :
    k0_pay1 (F := Ideal) v32 v36 (ix3 u w q) = min (v36 (ix3 (0 : Fin 1) w q)) (v32 (ix2 w q)) := by
  unfold k0_pay1
  refine (shapeCast_ab_1ab_apply _ shapeCasts_S1x2048_S1x1x2048 u w q).trans ?_
  exact congrArg (min · (v32 (ix2 w q))) (shapeCast_1ab_ab_apply v36 shapeCasts_S1x1x2048_S1x2048 w q)

end Cert.Chamfer.Tile

end
-- ==== Proof.Clouds.lean ====
/-
  The specification: nearest distances between two clouds of points.

  A cloud is sixteen samples of 2048 points of three coordinates. For two clouds, the distance between point `p` of
  the first and point `q` of the second, within one sample, is the root of the squared distance plus a small
  constant; the kernel and the reference spell the squared distance differently (`Distance.lean`), and on clouds of
  real entries the two spellings are one number. Each point's nearest distance to the other cloud is a minimum over
  2048 such distances, taken from `+inf`: a fold of `min`, characterised by its lower bounds — a number is below the
  minimum exactly when it is below `+inf`'s word and below every distance. The kernel reaches the minimum over the
  first cloud 512 points at a time; a lower bound of the points before a block and of the block's points is a lower
  bound of the points up to the block's end.
-/
import proofs.«160023_j88390426951951_1_alg».proof.Proof.Distance
import Idealize.ShloMosaic.Lib.ValueIdx

noncomputable section

namespace Cert.Chamfer

open Idealize.ShloMosaic Idealize.ShloMosaic.ValueIdx

/-- A cloud: an extended real per sample, point and coordinate. -/
abbrev Cloud : Type := (⟨3, ![16, 2048, 3]⟩ : Shape).Idx → EReal

/-- Point `p` of sample `b` of a cloud, by its three coordinates. -/
def pt (P : Cloud) (b : Fin 16) (p : Fin 2048) : Fin 3 → EReal := fun i => P (ix3 b p i)

/-- The distance as the kernel spells it: the root of the clamped expansion plus the small constant. -/
def distK (P Q : Cloud) (b : Fin 16) (p q : Fin 2048) : EReal :=
  Ideal.sqrt (max (sqExpand (pt P b p) (pt Q b q)) 0 + eps)

/-- The distance as the reference spells it: the root of the sum of squared differences plus the small constant. -/
def distR (P Q : Cloud) (b : Fin 16) (p q : Fin 2048) : EReal :=
  Ideal.sqrt (sqDiff (pt P b p) (pt Q b q) + eps)

/-- On clouds whose entries are all real numbers the two spellings agree. -/
theorem distK_eq_distR (P Q : Cloud) (hP : ∀ j, ∃ r : ℝ, P j = (r : EReal)) (hQ : ∀ j, ∃ r : ℝ, Q j = (r : EReal)) :
    distK P Q = distR P Q := by
  funext b p q
  unfold distK distR
  choose a ha using fun i : Fin 3 => hP (ix3 b p i)
  choose a' ha' using fun i : Fin 3 => hQ (ix3 b q i)
  have e1 : pt P b p = fun i => (a i : EReal) := funext ha
  have e2 : pt Q b q = fun i => (a' i : EReal) := funext ha'
  rw [e1, e2, clamp_expand_eq]

/-- The value every minimum starts from: the extended real the word of `+inf` denotes. -/
def start : EReal := Ideal.ofBits .f32 0x7F800000#32

/-- Each point of the first cloud: its least distance to the second cloud's points of the same sample. -/
def nearestTarget (D : Fin 16 → Fin 2048 → Fin 2048 → EReal) (b : Fin 16) (p : Fin 2048) : EReal :=
  (Finset.univ : Finset (Fin 2048)).fold min start (fun q => D b p q)

/-- Each point of the second cloud: its least distance to the first cloud's points of the same sample. -/
def nearestQuery (D : Fin 16 → Fin 2048 → Fin 2048 → EReal) (b : Fin 16) (q : Fin 2048) : EReal :=
  (Finset.univ : Finset (Fin 2048)).fold min start (fun p => D b p q)

/-- A number is below a point's least distance to the first cloud exactly when it is below the starting value and
    below every one of the distances. -/
theorem le_nearestQuery_iff (D : Fin 16 → Fin 2048 → Fin 2048 → EReal) (b : Fin 16) (q : Fin 2048) (x : EReal) :
    x ≤ nearestQuery D b q ↔ x ≤ start ∧ ∀ p : Fin 2048, x ≤ D b p q := by
  unfold nearestQuery
  rw [Finset.le_fold_min]
  exact and_congr_right fun _ => ⟨fun h p => h p (Finset.mem_univ p), fun h p _ => h p⟩

/-- A lower bound of the first `512 k` entries and of the next 512 is a lower bound of the first `512 (k + 1)`. -/
theorem lowerBound_extend (f : Fin 2048 → EReal) (k : ℕ) (hk : k < 4) (x s : EReal) :
    ((x ≤ s ∧ ∀ p : Fin 2048, p.val < 512 * k → x ≤ f p)
        ∧ (x ≤ s ∧ ∀ r : Fin 512, x ≤ f ⟨512 * k + r.val, by have := r.isLt; omega⟩))
      ↔ (x ≤ s ∧ ∀ p : Fin 2048, p.val < 512 * (k + 1) → x ≤ f p) := by
  constructor
  · rintro ⟨⟨hs, hlo⟩, -, hhi⟩
    refine ⟨hs, fun p hp => ?_⟩
    by_cases h : p.val < 512 * k
    · exact hlo p h
    · have hr : p.val - 512 * k < 512 := by omega
      have := hhi ⟨p.val - 512 * k, hr⟩
      have e : (⟨512 * k + (p.val - 512 * k), by omega⟩ : Fin 2048) = p := Fin.ext (by show 512 * k + (p.val - 512 * k) = p.val; omega)
      rwa [e] at this
  · rintro ⟨hs, h⟩
    exact ⟨⟨hs, fun p hp => h p (by omega)⟩, hs, fun r => h _ (by show 512 * k + r.val < 512 * (k + 1); have := r.isLt; omega)⟩

end Cert.Chamfer

end
-- ==== Proof.Running.lean ====
/-
  What the two output blocks hold after each grid point, in terms of the two clouds.

  Point `t` is sample `b = t / 4`, block `k = t % 4` of 512 queries. Its tile holds the distances between queries
  `512 k` to `512 k + 511` and all 2048 targets of sample `b`. So after the point the per-query block holds, at row
  `r`, the nearest-target distance of query `512 k + r`: final, whichever case the point is. The per-target block
  holds, at target `q`, the least distance to the queries seen so far in the sample, those below `512 (k + 1)`: at
  the sample's first block from the reset, at a later block from what the point before left. This is stated by lower
  bounds and proved by induction over the points.
-/
import proofs.«160023_j88390426951951_1_alg».proof.Proof.PointContents
import proofs.«160023_j88390426951951_1_alg».proof.Proof.BlockReads
import proofs.«160023_j88390426951951_1_alg».proof.Proof.TileMinima
import proofs.«160023_j88390426951951_1_alg».proof.Proof.Clouds

noncomputable section

namespace Cert.Chamfer.Point

open Idealize.ShloMosaic Idealize.ShloMosaic.ValueIdx Idealize.ShloMosaic.TcCoe Idealize.SL.Sem
open Cert.KernelIdeal Cert.KernelIdeal.Gen Cert.Chamfer Cert.Chamfer.Tile

/-! ## A tile and its minima, from where its blocks sit -/

/-- If row `r` of the block of queries is point `p` of sample `b` of `P`, and row `q` of the block of targets is
    point `q` of that sample of `Q`, entry `(r, q)` of the tile is the kernel's distance between the two. -/
theorem tile_of_blocks (x0 : Vec Ideal S1x512x3 .f32) (x1 : Vec Ideal S1x2048x3 .f32) (P Q : Cloud) (b : Fin 16)
    (r : Fin 512) (p q : Fin 2048) (h0 : ∀ i, x0 (ix3 (0 : Fin 1) r i) = P (ix3 b p i))
    (h1 : ∀ i, x1 (ix3 (0 : Fin 1) q i) = Q (ix3 b q i)) :
    k0_pay3 (F := Ideal) x0 x1 (ix2 r q) = distK P Q b p q := by
  rw [tile_apply]
  unfold distK pt
  simp only [h0, h1]

/-- The row minimum stored for query row `r` is that query's nearest-target distance. -/
theorem rowMin_of_blocks (x0 : Vec Ideal S1x512x3 .f32) (x1 : Vec Ideal S1x2048x3 .f32) (P Q : Cloud) (b : Fin 16)
    (u : Fin 1) (r : Fin 512) (w : Fin 1) (p : Fin 2048) (h0 : ∀ i, x0 (ix3 (0 : Fin 1) r i) = P (ix3 b p i))
    (h1 : ∀ q i, x1 (ix3 (0 : Fin 1) q i) = Q (ix3 b q i)) :
    k0_pay5 (F := Ideal) x0 x1 (ix3 u r w) = nearestTarget (distK P Q) b p := by
  rw [rowMin_apply]
  unfold nearestTarget start
  exact Finset.fold_congr fun q _ => tile_of_blocks x0 x1 P Q b r p q h0 (h1 q)

/-- The column minimum at target `q` is the least distance to the 512 queries of block `k`. -/
theorem colMin_of_blocks (x0 : Vec Ideal S1x512x3 .f32) (x1 : Vec Ideal S1x2048x3 .f32) (P Q : Cloud) (b : Fin 16)
    (k : ℕ) (hk : k < 4) (w : Fin 1) (q : Fin 2048)
    (h0 : ∀ (r : Fin 512) i, x0 (ix3 (0 : Fin 1) r i) = P (ix3 b ⟨512 * k + r.val, by have := r.isLt; omega⟩ i))
    (h1 : ∀ i, x1 (ix3 (0 : Fin 1) q i) = Q (ix3 b q i)) :
    k0_pay4 (F := Ideal) x0 x1 (ix2 w q)
      = (Finset.univ : Finset (Fin 512)).fold min start
          (fun r => distK P Q b ⟨512 * k + r.val, by have := r.isLt; omega⟩ q) := by
  rw [colMin_apply]
  unfold start
  exact Finset.fold_congr fun r _ => tile_of_blocks x0 x1 P Q b r _ q (h0 r) h1

variable (m : (ℓ : Loc nD τ sig) → Buf (Elt Ideal) ℓ)

/-! ## The per-query block -/

/-- After point `t`, row `r` of the per-query block is the nearest-target distance of query `512 (t % 4) + r` of
    sample `t / 4`. -/
theorem queries_after (c : Dev nD) (t : Fin cfg0.N) (u : Fin 1) (r : Fin 512) (w : Fin 1) (b : Fin 16) (p : Fin 2048)
    (hb : b.val = t.val / 4) (hp : p.val = 512 * (t.val % 4) + r.val) :
    (outsAt0 m c t.val t.isLt).1 (ix3 u r w) = nearestTarget (distK (cloudT m c) (cloudP m c)) b p := by
  have hblk := rowMin_of_blocks (queries m c t) (targets m c t) (cloudT m c) (cloudP m c) b u r w p
    (fun i => queries_apply m c t 0 r i b p hb hp) (fun q i => targets_apply m c t 0 q i b hb)
  by_cases h0 : t.val % 4 = 0
  · rw [outsAt0_A m c t h0]; dsimp only
    exact (congrFun (first_queries (F := Ideal) c (grid0.coords t) (ms0_0 t) (hs0_0 t) (ms0_1 t) (hs0_1 t) (ms0_2 t) (hs0_2 t) (ms0_3 t) (hs0_3 t)
      ((hcond0_0 t).mpr h0) (queries m c t) (targets m c t)) (ix3 u r w)).trans hblk
  · rw [outsAt0_B m c t h0]; dsimp only
    exact (congrFun (later_queries (F := Ideal) c (grid0.coords t) (ms0_0 t) (hs0_0 t) (ms0_1 t) (hs0_1 t) (ms0_2 t) (hs0_2 t) (ms0_3 t) (hs0_3 t)
      (fun h => h0 ((hcond0_0 t).mp h)) (queries m c t) (targets m c t)
      (outsAt0 m c (t.val - 1) (Nat.lt_of_le_of_lt (Nat.sub_le _ _) t.isLt)).2) (ix3 u r w)).trans hblk

/-! ## The per-target block -/

/-- After point `t`, a number is below the per-target block at target `q` exactly when it is below the starting
    value and below the distance from every query of the sample below `512 (t % 4 + 1)`. -/
theorem targets_after (c : Dev nD) : ∀ (n : ℕ) (t : Fin cfg0.N), t.val = n → ∀ (u w : Fin 1) (q : Fin 2048) (b : Fin 16),
    b.val = t.val / 4 → ∀ x : EReal,
    (x ≤ (outsAt0 m c t.val t.isLt).2 (ix3 u w q)
      ↔ x ≤ start ∧ ∀ p : Fin 2048, p.val < 512 * (t.val % 4 + 1) → x ≤ distK (cloudT m c) (cloudP m c) b p q) := by
  intro n
  induction n using Nat.strong_induction_on with
  | _ n ih =>
    intro t ht u w q b hb x
    have hN : cfg0.N = 64 := N_0
    have hk : t.val % 4 < 4 := Nat.mod_lt _ (by decide)
    have hcol := colMin_of_blocks (queries m c t) (targets m c t) (cloudT m c) (cloudP m c) b (t.val % 4) hk w q
      (fun r i => queries_apply m c t 0 r i b ⟨512 * (t.val % 4) + r.val, by have := r.isLt; omega⟩ hb rfl)
      (fun i => targets_apply m c t 0 q i b hb)
    have hfold : ∀ y : EReal, (y ≤ (Finset.univ : Finset (Fin 512)).fold min start
          (fun r => distK (cloudT m c) (cloudP m c) b ⟨512 * (t.val % 4) + r.val, by have := r.isLt; omega⟩ q))
        ↔ (y ≤ start ∧ ∀ r : Fin 512, y ≤ distK (cloudT m c) (cloudP m c) b ⟨512 * (t.val % 4) + r.val, by have := r.isLt; omega⟩ q) :=
      fun y => Iff.trans (Finset.le_fold_min y) (and_congr_right fun _ => ⟨fun h r => h r (Finset.mem_univ r), fun h r _ => h r⟩)
    by_cases h0 : t.val % 4 = 0
    · have hval : (outsAt0 m c t.val t.isLt).2 (ix3 u w q) = min start ((Finset.univ : Finset (Fin 512)).fold min start
          (fun r => distK (cloudT m c) (cloudP m c) b ⟨512 * (t.val % 4) + r.val, by have := r.isLt; omega⟩ q)) := by
        rw [outsAt0_A m c t h0]; dsimp only
        refine (congrFun (first_targets (F := Ideal) c (grid0.coords t) (ms0_0 t) (hs0_0 t) (ms0_1 t) (hs0_1 t) (ms0_2 t) (hs0_2 t) (ms0_3 t) (hs0_3 t)
          ((hcond0_0 t).mpr h0) (queries m c t) (targets m c t)) (ix3 u w q)).trans ?_
        refine (update_apply _ (k0_pay2 (F := Ideal)) u w q).trans ?_
        rw [hcol]
        rfl
      rw [hval, le_min_iff, hfold]
      have := lowerBound_extend (fun p => distK (cloudT m c) (cloudP m c) b p q) (t.val % 4) hk x start
      rw [← this]
      constructor
      · rintro ⟨hs, h⟩
        exact ⟨⟨hs, fun p hp => absurd hp (by omega)⟩, h⟩
      · rintro ⟨⟨hs, -⟩, h⟩
        exact ⟨hs, h⟩
    · have hpos : 0 < t.val := by omega
      have hlt : t.val - 1 < cfg0.N := Nat.lt_of_le_of_lt (Nat.sub_le _ _) t.isLt
      have hval : (outsAt0 m c t.val t.isLt).2 (ix3 u w q)
          = min ((outsAt0 m c (t.val - 1) hlt).2 (ix3 (0 : Fin 1) w q)) ((Finset.univ : Finset (Fin 512)).fold min start
          (fun r => distK (cloudT m c) (cloudP m c) b ⟨512 * (t.val % 4) + r.val, by have := r.isLt; omega⟩ q)) := by
        rw [outsAt0_B m c t h0]; dsimp only
        refine (congrFun (later_targets (F := Ideal) c (grid0.coords t) (ms0_0 t) (hs0_0 t) (ms0_1 t) (hs0_1 t) (ms0_2 t) (hs0_2 t) (ms0_3 t) (hs0_3 t)
          (fun h => h0 ((hcond0_0 t).mp h)) (queries m c t) (targets m c t) (outsAt0 m c (t.val - 1) hlt).2) (ix3 u w q)).trans ?_
        refine (update_apply _ _ u w q).trans ?_
        rw [hcol]
      have hprev := ih (t.val - 1) (by omega) ⟨t.val - 1, hlt⟩ rfl 0 w q b (by show b.val = (t.val - 1) / 4; omega) x
      have e : (t.val - 1) % 4 + 1 = t.val % 4 := by omega
      rw [hval, le_min_iff, hfold]
      have hprev' : (x ≤ (outsAt0 m c (t.val - 1) hlt).2 (ix3 (0 : Fin 1) w q))
          ↔ (x ≤ start ∧ ∀ p : Fin 2048, p.val < 512 * (t.val % 4) → x ≤ distK (cloudT m c) (cloudP m c) b p q) := by
        rw [← e]; exact hprev
      rw [hprev']
      exact lowerBound_extend (fun p => distK (cloudT m c) (cloudP m c) b p q) (t.val % 4) hk x start

end Cert.Chamfer.Point

end
-- ==== Proof.ResultArrays.lean ====
/-
  The two result arrays after the region.

  Every point writes back its block of per-query minima, and the blocks of the 64 points tile the array of
  per-query results: entry `(b, p)` is written by point `4 b + p / 512`, and holds point `p`'s nearest-target
  distance. The block of per-target minima is written back only at the last of a sample's four points, by which
  time it has met every query of the sample: entry `(b, q)` is written by point `4 b + 3`, and holds target `q`'s
  nearest-query distance.
-/
import proofs.«160023_j88390426951951_1_alg».proof.Proof.Running

noncomputable section

namespace Cert.Chamfer.Point

open Idealize.ShloMosaic Idealize.ShloMosaic.ValueIdx Idealize.ShloMosaic.TcCoe Idealize.SL.Sem
open Idealize.ShloMosaic.Pipeline (Dat)
open Cert.KernelIdeal Cert.KernelIdeal.Gen Cert.Chamfer Cert.Chamfer.Tile

variable (m : (ℓ : Loc nD τ sig) → Buf (Elt Ideal) ℓ)

/-- The array of per-query results: each first-cloud point's nearest-target distance. -/
def queryMins (c : Dev nD) : Buf (Elt Ideal) ((c : Thread nD τ).loc main_v8_0) :=
  fun (i : S16x2048x1.Idx) => (nearestTarget (distK (cloudT m c) (cloudP m c)) ⟨(i 0).val, (i 0).isLt⟩ ⟨(i 1).val, (i 1).isLt⟩ : EReal)

/-- The array of per-target results: each second-cloud point's nearest-query distance. -/
def targetMins (c : Dev nD) : Buf (Elt Ideal) ((c : Thread nD τ).loc main_v8_1) :=
  fun (i : S16x1x2048.Idx) => (nearestQuery (distK (cloudT m c) (cloudP m c)) ⟨(i 0).val, (i 0).isLt⟩ ⟨(i 2).val, (i 2).isLt⟩ : EReal)

/-- An index of the per-query array is in point `t`'s block iff each coordinate is in the block's range. -/
theorem mem_queries_block (t : Fin cfg0.N) (i : S16x2048x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v8_0).slice (win0_2.rect t)).set ↔ _
  rw [View.set_slice_whole, Rect.mem_set_unit]
  exact Iff.rfl

/-- An index of the per-target array is in point `t`'s block iff each coordinate is in the block's range. -/
theorem mem_targets_block (t : Fin cfg0.N) (i : S16x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v8_1).slice (win0_3.rect t)).set ↔ _
  rw [View.set_slice_whole, Rect.mem_set_unit]
  exact Iff.rfl

/-- What point `t` writes back to the per-query array is its block of that array. -/
theorem flushed_queries (c : Dev nD) (t : Fin cfg0.N) :
    (dats m 0 c).flushed 2 t = ((cfg0.win 2).blk t).view.read (Elt Ideal) (queryMins m c) := by
  have hN : cfg0.N = 64 := N_0
  have htl := t.isLt
  obtain ⟨-, -, -, -, -, -, e0, e1, e2, -⟩ := index_facts t
  show (cfg0.win 2).cut (grid0.coords t) ((dats m 0 c).after 2 t) = _
  rw [after0_2]
  funext j
  obtain ⟨u, r, w, rfl⟩ : ∃ (u : Fin 1) (r : Fin 512) (w : Fin 1), j = ix3 u r w := ⟨j 0, j 1, j 2, eq_ix3 j⟩
  have hu : u.val = 0 := by omega
  have hr := r.isLt
  show (outsAt0 m c t.val t.isLt).1 (ix3 u r w) = queryMins m c (((cfg0.win 2).blk t).view.emb (ix3 u r w))
  rw [queries_after m c t u r w ⟨t.val / 4, by omega⟩ ⟨512 * (t.val % 4) + r.val, by omega⟩ rfl rfl]
  unfold queryMins
  refine congrArg₂ (nearestTarget (distK (cloudT m c) (cloudP m c))) (Fin.ext ?_) (Fin.ext ?_)
  · show t.val / 4 = win0_2.index t (0 : Fin 3) * 1 + 1 * u.val
    omega
  · show 512 * (t.val % 4) + r.val = win0_2.index t (1 : Fin 3) * 512 + 1 * r.val
    omega

/-- The per-query array after the run. -/
theorem final_queries (c : Dev nD) : (dats m 0 c).arrAt 2 cfg0.N = queryMins m c :=
  (dats m 0 c).arrAt_eq_of_cover 2 (queryMins m c) (fun t _ => flushed_queries m c t) fun i => by
    have hN : cfg0.N = 64 := N_0
    have h0 : (i 0).val < 16 := (i 0).isLt
    have h1 : (i 1).val < 2048 := (i 1).isLt
    have h2 : (i 2).val < 1 := (i 2).isLt
    have hlt : 4 * (i 0).val + (i 1).val / 512 < cfg0.N := by omega
    refine ⟨⟨4 * (i 0).val + (i 1).val / 512, hlt⟩, flush0_2 _, ?_⟩
    obtain ⟨-, -, -, -, -, -, e0, e1, e2, -⟩ := index_facts ⟨4 * (i 0).val + (i 1).val / 512, hlt⟩
    dsimp only at e0 e1 e2
    rw [mem_queries_block]
    intro a
    match a with
    | ⟨0, _⟩ =>
      show win0_2.index ⟨4 * (i 0).val + (i 1).val / 512, hlt⟩ (0 : Fin 3) * 1 ≤ (i 0).val
        ∧ (i 0).val < win0_2.index ⟨4 * (i 0).val + (i 1).val / 512, hlt⟩ (0 : Fin 3) * 1 + 1
      omega
    | ⟨1, _⟩ =>
      show win0_2.index ⟨4 * (i 0).val + (i 1).val / 512, hlt⟩ (1 : Fin 3) * 512 ≤ (i 1).val
        ∧ (i 1).val < win0_2.index ⟨4 * (i 0).val + (i 1).val / 512, hlt⟩ (1 : Fin 3) * 512 + 512
      omega
    | ⟨2, _⟩ =>
      show win0_2.index ⟨4 * (i 0).val + (i 1).val / 512, hlt⟩ (2 : Fin 3) * 1 ≤ (i 2).val
        ∧ (i 2).val < win0_2.index ⟨4 * (i 0).val + (i 1).val / 512, hlt⟩ (2 : Fin 3) * 1 + 1
      omega

/-- What a sample's last point writes back to the per-target array is its block of that array: by then the block
    has met all 2048 queries of the sample. -/
theorem flushed_targets (c : Dev nD) (t : Fin cfg0.N) (hf : (cfg0.win 3).flush t = true) :
    (dats m 0 c).flushed 3 t = ((cfg0.win 3).blk t).view.read (Elt Ideal) (targetMins m c) := by
  have hN : cfg0.N = 64 := N_0
  have htl := t.isLt
  have h3 : t.val % 4 = 3 := (flush0_3 t).mp hf
  obtain ⟨-, -, -, -, -, -, -, -, -, e0, e1, e2⟩ := index_facts t
  show (cfg0.win 3).cut (grid0.coords t) ((dats m 0 c).after 3 t) = _
  rw [after0_3]
  funext j
  obtain ⟨u, w, q, rfl⟩ : ∃ (u w : Fin 1) (q : Fin 2048), j = ix3 u w q := ⟨j 0, j 1, j 2, eq_ix3 j⟩
  have hu : u.val = 0 := by omega
  show (outsAt0 m c t.val t.isLt).2 (ix3 u w q) = targetMins m c (((cfg0.win 3).blk t).view.emb (ix3 u w q))
  unfold targetMins
  have eb : (⟨((((cfg0.win 3).blk t).view.emb (ix3 u w q)) 0).val, ((((cfg0.win 3).blk t).view.emb (ix3 u w q)) 0).isLt⟩ : Fin 16)
      = ⟨t.val / 4, by omega⟩ := Fin.ext (by show win0_3.index t (0 : Fin 3) * 1 + 1 * u.val = t.val / 4; omega)
  have eq' : (⟨((((cfg0.win 3).blk t).view.emb (ix3 u w q)) 2).val, ((((cfg0.win 3).blk t).view.emb (ix3 u w q)) 2).isLt⟩ : Fin 2048)
      = q := Fin.ext (by show win0_3.index t (2 : Fin 3) * 2048 + 1 * q.val = q.val; omega)
  rw [eb, eq']
  refine eq_of_forall_le_iff fun x => ?_
  rw [targets_after m c t.val t rfl u w q ⟨t.val / 4, by omega⟩ rfl x, le_nearestQuery_iff]
  exact and_congr_right fun _ => ⟨fun h p => h p (by have := p.isLt; omega), fun h p _ => h p⟩

/-- The per-target array after the run. -/
theorem final_targets (c : Dev nD) : (dats m 0 c).arrAt 3 cfg0.N = targetMins m c :=
  (dats m 0 c).arrAt_eq_of_cover 3 (targetMins m c) (flushed_targets m c) fun i => by
    have hN : cfg0.N = 64 := N_0
    have h0 : (i 0).val < 16 := (i 0).isLt
    have h1 : (i 1).val < 1 := (i 1).isLt
    have h2 : (i 2).val < 2048 := (i 2).isLt
    have hlt : 4 * (i 0).val + 3 < cfg0.N := by omega
    refine ⟨⟨4 * (i 0).val + 3, hlt⟩, (flush0_3 _).mpr (by show (4 * (i 0).val + 3) % 4 = 3; omega), ?_⟩
    obtain ⟨-, -, -, -, -, -, -, -, -, e0, e1, e2⟩ := index_facts ⟨4 * (i 0).val + 3, hlt⟩
    dsimp only at e0 e1 e2
    rw [mem_targets_block]
    intro a
    match a with
    | ⟨0, _⟩ =>
      show win0_3.index ⟨4 * (i 0).val + 3, hlt⟩ (0 : Fin 3) * 1 ≤ (i 0).val
        ∧ (i 0).val < win0_3.index ⟨4 * (i 0).val + 3, hlt⟩ (0 : Fin 3) * 1 + 1
      omega
    | ⟨1, _⟩ =>
      show win0_3.index ⟨4 * (i 0).val + 3, hlt⟩ (1 : Fin 3) * 1 ≤ (i 1).val
        ∧ (i 1).val < win0_3.index ⟨4 * (i 0).val + 3, hlt⟩ (1 : Fin 3) * 1 + 1
      omega
    | ⟨2, _⟩ =>
      show win0_3.index ⟨4 * (i 0).val + 3, hlt⟩ (2 : Fin 3) * 2048 ≤ (i 2).val
        ∧ (i 2).val < win0_3.index ⟨4 * (i 0).val + 3, hlt⟩ (2 : Fin 3) * 2048 + 2048
      omega

end Cert.Chamfer.Point

end
-- ==== Proof.MeanTail.lean ====
/-
  The loss both programs end with: the mean over samples of the two mean nearest distances.

  From the nearest-target distances of the first cloud's points and the nearest-query distances of the second's,
  each sixteen samples of 2048 numbers, both programs take per sample the mean of each (the sum from zero, divided
  by 2048), add the two means, and take the mean over the sixteen samples (the sum from zero, divided by 16). The
  two programs spell this with the same operations and the same words, so it is named once here and never opened:
  equal arguments give equal losses.
-/
import Idealize.ShloMosaic.PureOps.Ideal
import Idealize.ShloMosaic.PureOps.Ideal.Laws

noncomputable section

namespace Cert.Chamfer

open Idealize.ShloMosaic

/-- Sixteen samples of 2048 nearest distances. -/
abbrev Mins : Type := FVec Ideal ⟨2, ![16, 2048]⟩ .f32

theorem sumPoints : (⟨2, ![16, 2048]⟩ : Shape).ReducesTo [1] ⟨1, ![16]⟩ := by decide
theorem sumSamples : (⟨1, ![16]⟩ : Shape).ReducesTo [0] ⟨0, ![]⟩ := by decide
theorem scalarPos : 0 < (⟨0, ![]⟩ : Shape).numel := by decide
theorem spread16 : (⟨0, ![]⟩ : Shape).BroadcastsInDim ⟨1, ![16]⟩ (![] : Fin 0 → Fin (⟨1, ![16]⟩ : Shape).rank) := by decide

/-- The mean over the 2048 points of each sample. -/
def meanPoints (a : Mins) : FVec Ideal ⟨1, ![16]⟩ .f32 :=
  Host.divf (F := Ideal) (Host.reduceAdd (F := Ideal) a (constant (F := Ideal) ⟨0, ![]⟩ .f32 0x00000000#32) sumPoints scalarPos)
    (broadcastInDim ⟨1, ![16]⟩ ![] spread16 (constant (F := Ideal) ⟨0, ![]⟩ .f32 0x45000000#32))

/-- The loss: the mean over the samples of the sum of the two per-sample means. -/
def loss (a b : Mins) : FVec Ideal ⟨0, ![]⟩ .f32 :=
  Host.divf (F := Ideal)
    (Host.reduceAdd (F := Ideal) (addf (meanPoints a) (meanPoints b)) (constant (F := Ideal) ⟨0, ![]⟩ .f32 0x00000000#32)
      sumSamples scalarPos)
    (constant (F := Ideal) ⟨0, ![]⟩ .f32 0x41800000#32)

end Cert.Chamfer

end
-- ==== Proof.KernelResult.lean ====
/-
  The kernel's run, read: its result is the loss of the two arrays of nearest distances.

  Before the region the host forms the two clouds from the arguments: each point times a pose's rotation, plus its
  translation. After the region it drops the unit axis of each result array and takes the loss. The frame run's post
  names the result buffer as those last operations applied to the arrays the region leaves.
-/
import proofs.«160023_j88390426951951_1_alg».proof.Proof.ResultArrays
import proofs.«160023_j88390426951951_1_alg».proof.Proof.MeanTail
import Idealize.ShloMosaic.Lib.StableHlo.Run

noncomputable section

namespace Cert.Chamfer.Point

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen Cert.Chamfer Cert.Chamfer.Tile

variable (m : (ℓ : Loc nD τ sig) → Buf (Elt Ideal) ℓ) (ρ : Dev nD → PrngReg)

/-- A cloud from the points and a pose: each point times the pose's rotation, plus the pose's translation. -/
def moved (pts : FVec Ideal S16x2048x3 .f32) (rot : FVec Ideal S16x3x3 .f32) (tr : FVec Ideal S16x3 .f32) :
    FVec Ideal S16x2048x3 .f32 :=
  addf (Host.dotGeneral dot_S16x2048x3_S16x3x3_S16x2048x3_2_2_1_1_0_0 none pts rot)
    (broadcastInDim S16x2048x3 ![0, 1, 2] bcast_S16x1x3_S16x2048x3_0_1_2
      (broadcastInDim S16x1x3 ![0, 2] bcast_S16x3_S16x1x3_0_2 tr))

/-- The first cloud is the points moved by the current pose. -/
theorem cloudT_eq (c : Dev nD) : cloudT m c
    = moved (m ((c : Thread nD τ).loc main_arg4)) (m ((c : Thread nD τ).loc main_arg0)) (m ((c : Thread nD τ).loc main_arg1)) := by
  show StableHlo.after hostOps0 (fun b => m (c, b)) (Proc.devRef .tc main_v3) = _
  after_results
  rfl

/-- The second cloud is the points moved by the previous pose. -/
theorem cloudP_eq (c : Dev nD) : cloudP m c
    = moved (m ((c : Thread nD τ).loc main_arg4)) (m ((c : Thread nD τ).loc main_arg2)) (m ((c : Thread nD τ).loc main_arg3)) := by
  show StableHlo.after hostOps0 (fun b => m (c, b)) (Proc.devRef .tc main_v7) = _
  after_results
  rfl

/-- The per-query results with their unit axis dropped. -/
abbrev queryRow (c : Dev nD) : Mins := shapeCast S16x2048 (queryMins m c) shapeCasts_S16x2048x1_S16x2048
/-- The per-target results with their unit axis dropped. -/
abbrev targetRow (c : Dev nD) : Mins := shapeCast S16x2048 (targetMins m c) shapeCasts_S16x1x2048_S16x2048

/-- Dropping the trailing unit axis moves nothing: entry `(b, p)` is entry `(b, p, 0)`. -/
theorem queryRow_apply (c : Dev nD) (b : Fin 16) (p : Fin 2048) :
    queryRow m c (ix2 b p) = nearestTarget (distK (cloudT m c) (cloudP m c)) b p :=
  shapeCast_apply (queryMins m c) shapeCasts_S16x2048x1_S16x2048 (ix2 b p) (ix3 b p (0 : Fin 1)) (by
    show (S16x2048x1.rowMajor (ix3 b p (0 : Fin 1))).val = (S16x2048.rowMajor (ix2 b p)).val
    rw [Shape.rowMajor_val_three, Shape.rowMajor_val_two]
    show (b.val * 2048 + p.val) * 1 + 0 = b.val * 2048 + p.val
    omega)

/-- Dropping the middle unit axis moves nothing: entry `(b, q)` is entry `(b, 0, q)`. -/
theorem targetRow_apply (c : Dev nD) (b : Fin 16) (q : Fin 2048) :
    targetRow m c (ix2 b q) = nearestQuery (distK (cloudT m c) (cloudP m c)) b q :=
  shapeCast_apply (targetMins m c) shapeCasts_S16x1x2048_S16x2048 (ix2 b q) (ix3 b (0 : Fin 1) q) (by
    show (S16x1x2048.rowMajor (ix3 b (0 : Fin 1) q)).val = (S16x2048.rowMajor (ix2 b q)).val
    rw [Shape.rowMajor_val_three, Shape.rowMajor_val_two]
    show (b.val * 1 + 0) * 2048 + q.val = b.val * 2048 + q.val
    omega)

/-- What the host's last operations leave in the result buffer: the loss of the two arrays the region leaves. -/
theorem tail_eq (c : Dev nD) :
    Pipeline.afterTail₀ cfgs (dats m) 0 (V0 m) [hostOps1] c main_v19 = loss (queryRow m c) (targetRow m c) := by
  have e2 : Pipeline.withArrays (cfgs 0).spec c (V0 m c) (fun w => (dats m 0 c).arrAt w (cfgs 0).N) (Proc.devRef .tc main_v8_0)
      = queryMins m c := (Pipeline.withArrays_arr spec0 launch0.win.arr_inj c _ _ 2).trans (final_queries m c)
  have e3 : Pipeline.withArrays (cfgs 0).spec c (V0 m c) (fun w => (dats m 0 c).arrAt w (cfgs 0).N) (Proc.devRef .tc main_v8_1)
      = targetMins m c := (Pipeline.withArrays_arr spec0 launch0.win.arr_inj c _ _ 3).trans (final_targets m c)
  unfold Pipeline.afterTail₀
  show StableHlo.after hostOps1 _ (Proc.devRef .tc main_v19) = _
  after_results
  rw [e2, e3]
  rfl

/-- The kernel's run: every weakly fair execution ends with the result buffer at the loss of the two arrays of
    nearest distances, the arguments unchanged. -/
theorem run : θ_run defs (onTc (τ := τ) (main (F := Ideal))) ⟨m, fun _ => 0, ρ⟩ fun r => ∀ c : Dev nD,
      r.2.mem ((c.tc : Thread nD τ).loc main_v19) = loss (queryRow m c) (targetRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Chamfer.Point

end
-- ==== Proof.ReferenceDistances.lean ====
/-
  The reference, read: its distances, its two minima, its result.

  The reference forms the difference of every point of the first cloud with every point of the second of the same
  sample, squares it, sums the three coordinates from zero, adds the small constant and takes the root: the distance
  in the reference's spelling. It then takes the minimum over the second cloud's points and over the first's, each
  from `+inf`, and ends with the loss. The two minima are folds over an axis, read here by hand; everything else
  is read one operation at a time by the generated lemmas.
-/
import proofs.«160023_j88390426951951_1_alg».proof.Proof.Gen.ReferenceIdeal.Read
import proofs.«160023_j88390426951951_1_alg».proof.Proof.Clouds
import proofs.«160023_j88390426951951_1_alg».proof.Proof.MeanTail
import Idealize.ShloMosaic.Lib.ValueIdx
import Idealize.ShloMosaic.PureOps.Ideal.Laws

noncomputable section

namespace Cert.Chamfer.Ref

open Idealize.ShloMosaic Idealize.ShloMosaic.ValueIdx Idealize.ShloMosaic.TcCoe
open Cert.ReferenceIdeal Cert.ReferenceIdeal.Gen Cert.ReferenceIdeal.Read Cert.Chamfer

variable (x0 : (⟨S16x3x3, .f32⟩ : BufTy).Contents (Elt Ideal)) (x1 : (⟨S16x3, .f32⟩ : BufTy).Contents (Elt Ideal))
  (x2 : (⟨S16x3x3, .f32⟩ : BufTy).Contents (Elt Ideal)) (x3 : (⟨S16x3, .f32⟩ : BufTy).Contents (Elt Ideal))
  (x4 : (⟨S16x2048x3, .f32⟩ : BufTy).Contents (Elt Ideal))

/-- The first cloud: the points under the current pose. -/
abbrev cloudT : Cloud := val_main_v3 (F := Ideal) x0 x1 x4
/-- The second cloud: the points under the previous pose. -/
abbrev cloudP : Cloud := val_main_v7 (F := Ideal) x2 x3 x4

/-- Through the two broadcasts, coordinate `k` of the pair `(p, q)` of sample `b` reads the first cloud at `(b, p, k)` -/
theorem idxT (b : Fin 16) (p q : Fin 2048) (k : Fin 3) :
    idx_main_v8 (idx_main_v10 (idx_main_v14 (ix3 b p q) k)) = ix3 b p k :=
  funext fun a => Fin.ext (by match a with | ⟨0, _⟩ => rfl | ⟨1, _⟩ => rfl | ⟨2, _⟩ => rfl)
/-- and the second at `(b, q, k)`. -/
theorem idxP (b : Fin 16) (p q : Fin 2048) (k : Fin 3) :
    idx_main_v9 (idx_main_v11 (idx_main_v14 (ix3 b p q) k)) = ix3 b q k :=
  funext fun a => Fin.ext (by match a with | ⟨0, _⟩ => rfl | ⟨1, _⟩ => rfl | ⟨2, _⟩ => rfl)

/-- The reference's distance between point `p` of the first cloud and point `q` of the second, in sample `b`. -/
theorem dist_apply (b : Fin 16) (p q : Fin 2048) :
    val_main_v17 (F := Ideal) x0 x1 x2 x3 x4 (ix3 b p q) = distR (cloudT x0 x1 x4) (cloudP x2 x3 x4) b p q := by
  rw [val_main_v17_apply, val_main_v16_apply, val_main_v14_apply, val_main_v15_apply]
  simp only [val_main_v13_apply, val_main_v12_apply, val_main_v10_apply, val_main_v11_apply, val_main_v8_apply,
    val_main_v9_apply, idxT, idxP, val_main_cst_apply, val_main_cst_0_apply]
  unfold distR sqDiff pt eps
  simp only [Ideal.hostUnary_sqrt_def, Ideal.addf_def, Ideal.mulf_def, Ideal.subf_def, Ideal.ofBits_def,
    Ideal.ofBits_zero_f32, zero_add]

theorem overTargets : S16x2048x2048.Reduces [2] S16x2048 := by decide
theorem overQueries : S16x2048x2048.Reduces [1] S16x2048 := by decide

/-- The reference's minimum over the second cloud's points is each first-cloud point's nearest-target distance. -/
theorem nearestTarget_apply (b : Fin 16) (p : Fin 2048) :
    val_main_v18 (F := Ideal) x0 x1 x2 x3 x4 (ix2 b p) = nearestTarget (distR (cloudT x0 x1 x4) (cloudP x2 x3 x4)) b p := by
  unfold val_main_v18
  rw [Host.reduce_eq_fold_single (FloatOps.minimumf (F := Ideal) (φ := .f32)) _ _ _ overTargets]
  unfold nearestTarget start
  exact Finset.fold_congr fun q _ => (congrArg (val_main_v17 (F := Ideal) x0 x1 x2 x3 x4) (funext fun a => Fin.ext (by
    match a with
    | ⟨0, _⟩ => rfl
    | ⟨1, _⟩ => rfl
    | ⟨2, _⟩ => rfl))).trans (dist_apply x0 x1 x2 x3 x4 b p q)

/-- The reference's minimum over the first cloud's points is each second-cloud point's nearest-query distance. -/
theorem nearestQuery_apply (b : Fin 16) (q : Fin 2048) :
    val_main_v19 (F := Ideal) x0 x1 x2 x3 x4 (ix2 b q) = nearestQuery (distR (cloudT x0 x1 x4) (cloudP x2 x3 x4)) b q := by
  unfold val_main_v19
  rw [Host.reduce_eq_fold_single (FloatOps.minimumf (F := Ideal) (φ := .f32)) _ _ _ overQueries]
  unfold nearestQuery start
  exact Finset.fold_congr fun p _ => (congrArg (val_main_v17 (F := Ideal) x0 x1 x2 x3 x4) (funext fun a => Fin.ext (by
    match a with
    | ⟨0, _⟩ => rfl
    | ⟨1, _⟩ => rfl
    | ⟨2, _⟩ => rfl))).trans (dist_apply x0 x1 x2 x3 x4 b p q)

/-- The reference's result is the loss of its two minima. -/
theorem result_eq : val_main_v28 (F := Ideal) x0 x1 x2 x3 x4 = loss (val_main_v18 (F := Ideal) x0 x1 x2 x3 x4) (val_main_v19 (F := Ideal) x0 x1 x2 x3 x4) := rfl

end Cert.Chamfer.Ref

end
-- ==== Proof.ReferenceClouds.lean ====
/-
  The two clouds have real entries when the inputs do.

  Entry `(b, p, i)` of a cloud is the sum over `k` of the point's coordinate `k` times the pose's rotation entry
  `(b, i, k)`, plus the pose's translation entry `(b, i)`: sums and products of real numbers, so a real number.
-/
import proofs.«160023_j88390426951951_1_alg».proof.Proof.Gen.ReferenceIdeal.Read
import Idealize.ShloMosaic.PureOps.Ideal.Laws

noncomputable section

namespace Cert.Chamfer.Ref

open Idealize.ShloMosaic Idealize.ShloMosaic.TcCoe
open Cert.ReferenceIdeal Cert.ReferenceIdeal.Gen Cert.ReferenceIdeal.Read

/-- A sum of three products of reals plus a real, as extended reals, is a real. -/
theorem real_affine3 (u v : Fin 3 → EReal) (w : EReal) (hu : ∀ k, ∃ r : ℝ, u k = (r : EReal))
    (hv : ∀ k, ∃ r : ℝ, v k = (r : EReal)) (hw : ∃ r : ℝ, w = (r : EReal)) :
    ∃ r : ℝ, (∑ k : Fin 3, u k * v k) + w = (r : EReal) := by
  choose a ha using hu
  choose b hb using hv
  obtain ⟨t, rfl⟩ := hw
  refine ⟨a 0 * b 0 + a 1 * b 1 + a 2 * b 2 + t, ?_⟩
  rw [Fin.sum_univ_three]
  simp only [ha, hb]
  norm_cast

/-- The first cloud's entries are real when the current pose and the points are. -/
theorem cloudT_real (x0 : (⟨S16x3x3, .f32⟩ : BufTy).Contents (Elt Ideal)) (x1 : (⟨S16x3, .f32⟩ : BufTy).Contents (Elt Ideal))
    (x4 : (⟨S16x2048x3, .f32⟩ : BufTy).Contents (Elt Ideal)) (h0 : ∀ i, ∃ r : ℝ, x0 i = (r : EReal))
    (h1 : ∀ i, ∃ r : ℝ, x1 i = (r : EReal)) (h4 : ∀ i, ∃ r : ℝ, x4 i = (r : EReal)) (j : S16x2048x3.Idx) :
    ∃ r : ℝ, val_main_v3 (F := Ideal) x0 x1 x4 j = (r : EReal) := by
  rw [val_main_v3_apply, val_main_v0_apply, val_main_v2_apply, val_main_v1_apply]
  exact real_affine3 (fun k => x4 (lidx_main_v0 j k)) (fun k => x0 (ridx_main_v0 j k)) _
    (fun k => h4 _) (fun k => h0 _) (h1 _)

/-- The second cloud's entries are real when the previous pose and the points are. -/
theorem cloudP_real (x2 : (⟨S16x3x3, .f32⟩ : BufTy).Contents (Elt Ideal)) (x3 : (⟨S16x3, .f32⟩ : BufTy).Contents (Elt Ideal))
    (x4 : (⟨S16x2048x3, .f32⟩ : BufTy).Contents (Elt Ideal)) (h2 : ∀ i, ∃ r : ℝ, x2 i = (r : EReal))
    (h3 : ∀ i, ∃ r : ℝ, x3 i = (r : EReal)) (h4 : ∀ i, ∃ r : ℝ, x4 i = (r : EReal)) (j : S16x2048x3.Idx) :
    ∃ r : ℝ, val_main_v7 (F := Ideal) x2 x3 x4 j = (r : EReal) := by
  rw [val_main_v7_apply, val_main_v4_apply, val_main_v6_apply, val_main_v5_apply]
  exact real_affine3 (fun k => x4 (lidx_main_v4 j k)) (fun k => x2 (ridx_main_v4 j k)) _
    (fun k => h4 _) (fun k => h2 _) (h3 _)

end Cert.Chamfer.Ref

end
-- ==== Proof.FiniteInputs.lean ====
/-
  From the precondition to real entries.

  The precondition says of each of the five inputs that every entry's absolute value is below `+inf`, the five
  statements folded by `and`. An extended real whose absolute value `max x (-x)` is below the top is neither
  infinity, so it is a real number. That is all the proof uses of the precondition: the expansion of a squared
  difference needs real coordinates.
-/
import proofs.«160023_j88390426951951_1_alg».proof.Pre_finite_inputs
import proofs.«160023_j88390426951951_1_alg».proof.Proof.Distance
import Idealize.ShloMosaic.Lib.ReduceAll
import Idealize.ShloMosaic.Lib.ValueIdx
import Idealize.ShloMosaic.PureOps.Ideal.Laws

noncomputable section

namespace Cert.Chamfer.Finite

open Idealize.ShloMosaic Idealize.ShloMosaic.ValueIdx Cert.Pre_finite_inputs

/-- An extended real whose absolute value compares below the word of `+inf` is a real number. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [Cert.Chamfer.word_inf] at h
  induction x using EReal.rec with
  | bot => exact absurd h (by simp [Ideal.cmpf_def, Ideal.cmp, Ideal.hostAbsf_def, Ideal.absf_def])
  | top => exact absurd h (by simp [Ideal.cmpf_def, Ideal.cmp, Ideal.hostAbsf_def, Ideal.absf_def])
  | coe r => exact ⟨r, rfl⟩

instance : Subsingleton S_.Idx := ⟨fun a b => funext fun d => d.elim0⟩

variable [Cert.Pre_finite_inputs.Facts]

/-- Under the precondition every entry of each of the five inputs is a real number. -/
theorem real_of_pre (a0 : FVec Ideal S16x3x3 .f32) (a1 : FVec Ideal S16x3 .f32) (a2 : FVec Ideal S16x3x3 .f32)
    (a3 : FVec Ideal S16x3 .f32) (a4 : FVec Ideal S16x2048x3 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.Chamfer.Finite

end
-- ==== Proof.lean ====
/-
  A bidirectional nearest-neighbour loss between two poses of a point cloud, computed by a tiled kernel and by a
  plain reference: the two are one function of their inputs over the extended reals, when the inputs are finite.

  Both programs first move 2048 points per sample by two poses (a rotation and a translation each), giving two
  clouds. The reference forms every pairwise distance as the root of the sum of squared coordinate differences plus
  a small constant, takes for each point of either cloud the least distance to the other cloud, and returns the mean
  over samples of the two mean least distances. The kernel forms the same distances 512 points of the first cloud at
  a time, from squared norms and an inner product: `|a|² + |b|² - 2 a·b`, clamped at zero. On real coordinates that
  is `|a - b|²`, and the clamp changes nothing since a sum of squares is not negative (`Distance.lean`,
  `Clouds.lean`); the coordinates are real because the inputs are (`FiniteInputs.lean`, `ReferenceClouds.lean`).
  Each point of the first cloud meets all of the second within one tile, so its least distance is a row minimum
  (`TileMinima.lean`); each point of the second cloud meets the first cloud over four tiles, and its least distance
  is built up by `min` from `+inf` across them (`Running.lean`), complete when the block is written back
  (`ResultArrays.lean`). The mean of means is the same operations on both sides (`MeanTail.lean`).

  The kernel and its idealization run, with their arguments unchanged, by their generated frame certificates; the
  reference by its generated run. No rewrite separates the kernel from its idealization.
-/
import proofs.«160023_j88390426951951_1_alg».proof.Defs
import proofs.«160023_j88390426951951_1_alg».proof.Proof.Gen.Kernel
import proofs.«160023_j88390426951951_1_alg».proof.Proof.Gen.Kernel.Skeleton
import proofs.«160023_j88390426951951_1_alg».proof.Proof.Gen.Kernel.Launch
import proofs.«160023_j88390426951951_1_alg».proof.Proof.Gen.Kernel.Points
import proofs.«160023_j88390426951951_1_alg».proof.Proof.Gen.Kernel.Frame
import proofs.«160023_j88390426951951_1_alg».proof.Proof.Gen.KernelIdeal
import proofs.«160023_j88390426951951_1_alg».proof.Proof.Gen.KernelIdeal.Skeleton
import proofs.«160023_j88390426951951_1_alg».proof.Proof.Gen.KernelIdeal.Launch
import proofs.«160023_j88390426951951_1_alg».proof.Proof.Gen.KernelIdeal.Points
import proofs.«160023_j88390426951951_1_alg».proof.Proof.Gen.KernelIdeal.Frame
import proofs.«160023_j88390426951951_1_alg».proof.Proof.Gen.ReferenceIdeal
import proofs.«160023_j88390426951951_1_alg».proof.Proof.Gen.ReferenceIdeal.Run
import proofs.«160023_j88390426951951_1_alg».proof.Proof.Gen.ReferenceIdeal.Read
import proofs.«160023_j88390426951951_1_alg».proof.Proof.Gen.Pre_finite_inputs
import proofs.«160023_j88390426951951_1_alg».proof.Proof.KernelResult
import proofs.«160023_j88390426951951_1_alg».proof.Proof.ReferenceDistances
import proofs.«160023_j88390426951951_1_alg».proof.Proof.ReferenceClouds
import proofs.«160023_j88390426951951_1_alg».proof.Proof.FiniteInputs
import Idealize.ShloMosaic.Adequacy
import Idealize.ShloMosaic.Init

noncomputable section

namespace Cert.Proof

open Idealize.ShloMosaic Idealize.ShloMosaic.ValueIdx Idealize.SL.Sem Cert.Chamfer

/-- The kernel runs and leaves its arguments as they were: its generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five inputs, all finite, both idealized programs end with the same loss. -/
theorem algebraic : Cert.algebraic_KernelIdeal_ReferenceIdeal := by
  intro m ρ m' ρ' hpre hagree
  refine ⟨fun c => loss (Point.queryRow m c) (Point.targetRow m c), Point.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v28_eq, e0, e1, e2, e3, e4, Ref.result_eq]
  obtain ⟨r0, r1, r2, r3, r4⟩ := Finite.real_of_pre _ _ _ _ _ (hpre c)
  -- the clouds the region finds are the reference's clouds of the same inputs,
  have hT : (Point.cloudT m c : Cloud) = Ref.cloudT _ _ _ := (Point.cloudT_eq m c).trans rfl
  have hP : (Point.cloudP m c : Cloud) = Ref.cloudP _ _ _ := (Point.cloudP_eq m c).trans rfl
  -- their entries are real, so the two spellings of the distance agree on them,
  have hD : distK (Point.cloudT m c) (Point.cloudP m c)
      = distR (Ref.cloudT (m ((c.tc : Thread _ _).loc Cert.KernelIdeal.main_arg0)) (m ((c.tc : Thread _ _).loc Cert.KernelIdeal.main_arg1))
          (m ((c.tc : Thread _ _).loc Cert.KernelIdeal.main_arg4)))
        (Ref.cloudP (m ((c.tc : Thread _ _).loc Cert.KernelIdeal.main_arg2)) (m ((c.tc : Thread _ _).loc Cert.KernelIdeal.main_arg3))
          (m ((c.tc : Thread _ _).loc Cert.KernelIdeal.main_arg4))) := by
    rw [hT, hP]
    exact distK_eq_distR _ _ (Ref.cloudT_real _ _ _ r0 r1 r4) (Ref.cloudP_real _ _ _ r2 r3 r4)
  -- and the two arrays of least distances agree entry by entry.
  show loss _ _ = loss _ _
  refine congrArg₂ loss (funext fun i => ?_) (funext fun i => ?_)
  · obtain ⟨b, p, rfl⟩ : ∃ (b : Fin 16) (p : Fin 2048), i = ix2 b p := ⟨i 0, i 1, eq_ix2 i⟩
    rw [Ref.nearestTarget_apply, Point.queryRow_apply, hD]
  · obtain ⟨b, q, rfl⟩ : ∃ (b : Fin 16) (q : Fin 2048), i = ix2 b q := ⟨i 0, i 1, eq_ix2 i⟩
    rw [Ref.nearestQuery_apply, Point.targetRow_apply, hD]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
